-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S64 .f32) (main_arg7 : FVec F S64x128 .f32) (main_arg8 : FVec F S64x128 .f32) (main_arg9 : FVec F S128 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_v33

def fn {F : FTy → Type} [FloatOps F] (main_arg0 : FVec F S100000x32 .f32) (main_arg1 : IVec S2x1600000 32) (main_arg2 : FVec F S1600000 .f32) (main_arg3 : IVec S100000 32) (main_arg4 : FVec F S32x64 .f32) (main_arg5 : FVec F S32x64 .f32) (main_arg6 : FVec F S64 .f32) (main_arg7 : FVec F S64x128 .f32) (main_arg8 : FVec F S64x128 .f32) (main_arg9 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x128 : Shape := ⟨2, ![1, 128]⟩
abbrev S100000x128 : Shape := ⟨2, ![100000, 128]⟩
abbrev S10000x128 : Shape := ⟨2, ![10000, 128]⟩
abbrev S512x128 : Shape := ⟨2, ![512, 128]⟩
abbrev S10000x1 : Shape := ⟨2, ![10000, 1]⟩
abbrev S1x512 : Shape := ⟨2, ![1, 512]⟩
abbrev S10000x512 : Shape := ⟨2, ![10000, 512]⟩
abbrev S512 : Shape := ⟨1, ![512]⟩
abbrev S512x1 : Shape := ⟨2, ![512, 1]⟩

abbrev nBuf : Space → Nat
  | .hbm => 64
  | .vmem => 25
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S32x64, .f32⟩
  | .hbm, ⟨5, _⟩ => ⟨S32x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S_, .f32⟩
  | .hbm, ⟨36, _⟩ => ⟨S100000x32, .f32⟩
  | .hbm, ⟨37, _⟩ => ⟨S1600000x1, .i32⟩
  | .hbm, ⟨38, _⟩ => ⟨S100000x32, .f32⟩
  | .hbm, ⟨39, _⟩ => ⟨S100000x1, .f32⟩
  | .hbm, ⟨40, _⟩ => ⟨S100000x32, .f32⟩
  | .hbm, ⟨41, _⟩ => ⟨S100000x32, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x128, .f32⟩
  | .hbm, ⟨61, _⟩ => ⟨S100000x128, .f32⟩
  | .hbm, ⟨62, _⟩ => ⟨S100000x1, .i32⟩
  | .hbm, ⟨63, _⟩ => ⟨S512x128, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .i32⟩
  | .local _ .vmem, ⟨21, _⟩ => ⟨S10000x1, .i32⟩
  | .local _ .vmem, ⟨22, _⟩ => ⟨S512x128, .f32⟩
  | .local _ .vmem, ⟨23, _⟩ => ⟨S512x128, .f32⟩
  | .local _ .vmem, ⟨24, _⟩ => ⟨S1x512, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S1x512_d1_w32 : S1x512.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x512 : S10000x1.Broadcasts S10000x512
  broadcasts_S1x512_S10000x512 : S1x512.Broadcasts S10000x512
  natLt_1_32 : 1 < 32
  shapeCasts_S10000x128_S10000x128 : S10000x128.ShapeCasts S10000x128
  reduces_S10000x512_S512 : S10000x512.Reduces [0] S512
  shapeCasts_S512_S1x512 : S512.ShapeCasts S1x512
  transposes_S1x512_p1_0_S512x1 : S1x512.Transposes [1, 0] S512x1
  broadcasts_S512x1_S512x128 : S512x1.Broadcasts S512x128
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  dot_S10000x512_S10000x128_S512x128_0_0_1_1_n_n_wf : DotDims.WF S10000x512 S10000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x512_S10000x128_S512x128_0_0_1_1_n_n : DotDims S10000x512 S10000x128 S512x128 where
  lhsContracting := [0]
  rhsContracting := [0]
  lhsNonContracting := [1]
  rhsNonContracting := [1]
  lhsBatch := []
  rhsBatch := []
  wf := dot_S10000x512_S10000x128_S512x128_0_0_1_1_n_n_wf

abbrev win0_0 : Pipeline.Window sig grid0 :=
  Pipeline.Window.ofSpec (Memref.whole main_v24) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S512x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S32x64, .f32⟩
  | .hbm, ⟨5, _⟩ => ⟨S32x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S512x128, .f32⟩
  | .hbm, ⟨84, _⟩ => ⟨S100000x1, .i32⟩
  | .hbm, ⟨85, _⟩ => ⟨S512x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S512, .f32⟩
  | .hbm, ⟨90, _⟩ => ⟨S100000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x128, .f32⟩
  | .hbm, ⟨97, _⟩ => ⟨S512x128, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KBody0.lean ====
/-
  Region 0 of the kernel program: one row tile of the first SAGE layer.
  At grid point t the body reads the t-th block of 10000 rows of the mean-aggregated node features and of the node features,
  the two 32x64 weight matrices and the 1x64 bias row, and stores max(agg·W_l + x·W_r + b, 0) over the t-th
  block of 10000 rows of the layer's output. Stated at a parameter V, the contents of the core's buffers when
  the region is entered: each window's block at a point; what the one store leaves in the output's staging
  buffer as a function of the input blocks; the body's triple; the pipeline's proof data (every input left in
  place, the output at that function of the point's input blocks, nothing carried from point to point); and
  the body obligation at every point.
-/
import proofs.«401791_j6786048328256_1_alg».proof.Proof.Gen.Kernel.Launch
import proofs.«401791_j6786048328256_1_alg».proof.Proof.Gen.Kernel.Skeleton
import proofs.«401791_j6786048328256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (where the pipeline
    does not fetch, the block index has not moved), for any proof data whose array is V's and whose body leaves
    the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole staging buffer -/

abbrev rA0 : Rect S10000x32 := Rect.unit (s := S10000x32) ![0, 0] S10000x32.size inb_S10000x32_S10000x32_0_0
abbrev rW0 : Rect S32x64 := Rect.unit (s := S32x64) ![0, 0] S32x64.size inb_S32x64_S32x64_0_0
abbrev rB0 : Rect S1x64 := Rect.unit (s := S1x64) ![0, 0] S1x64.size inb_S1x64_S1x64_0_0
abbrev rO0 : Rect S10000x64 := Rect.unit (s := S10000x64) ![0, 0] S10000x64.size inb_S10000x64_S10000x64_0_0

/-- What the body leaves in the output window's staging buffer, from the five input blocks: its one store's
    payload laid over the whole buffer. -/
def out0_5 (a : Vec F S10000x32 .f32) (x : Vec F S10000x32 .f32) (wl : Vec F S32x64 .f32) (wr : Vec F S32x64 .f32) (b : Vec F S1x64 .f32) : Vec F S10000x64 .f32 :=
  View.canon [⟨rO0, k0_pay1 (View.ld a rA0) (View.ld wl rW0) (View.ld x rA0) (View.ld wr rW0) (View.ld b rB0)⟩]

/-- The one store covers the buffer. -/
theorem cover0_5 (p0 : Vec F S10000x64 .f32) (y : S10000x64.Idx) :
    ∃ pc ∈ ([⟨rO0, p0⟩] : List (View.Piece (Elt F) S10000x64 .f32)), y ∈ pc.1.set :=
  View.cover_of_tiled [⟨rO0, p0⟩] S10000x64.size (by rfl) y

set_option maxHeartbeats 1000000 in
/-- The body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S10000x32 .f32) (harg1 : arg1.IsWhole) (arg2 : Memref sig .tc .vmem S10000x32 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S1x64 .f32) (harg5 : arg5.IsWhole) (arg6 : Memref sig .tc .vmem S10000x64 .f32) (harg6 : arg6.IsWhole)
    (a : Vec F S10000x32 .f32) (x : Vec F S10000x32 .f32) (wl : Vec F S32x64 .f32) (wr : Vec F S32x64 .f32) (b : Vec F S1x64 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare wr ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare wr ∗ owns (c : Thread nD τ) arg5 fullShare b
            ∗ owns (c : Thread nD τ) arg6 fullShare (out0_5 a x wl wr b)) -∗ K ⟨⟩))
      ⊢ wp frame (wpE (defs₀ (F := F)) Variants.none c none) E (cc0__linear_relu_kernel i arg1 harg1 arg2 harg2 arg3 harg3 arg4 harg4 arg5 harg5 arg6 harg6) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at `out0_5` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of the kernel program: one row tile of the second SAGE layer.
  At grid point t the body reads the t-th block of 10000 rows of the mean-aggregated hidden features and of the hidden features,
  the two 64x128 weight matrices and the 1x128 bias row, and stores max(agg·W_l + x·W_r + b, 0) over the t-th
  block of 10000 rows of the layer's output. Stated at a parameter V, the contents of the core's buffers when
  the region is entered: each window's block at a point; what the one store leaves in the output's staging
  buffer as a function of the input blocks; the body's triple; the pipeline's proof data (every input left in
  place, the output at that function of the point's input blocks, nothing carried from point to point); and
  the body obligation at every point.
-/
import proofs.«401791_j6786048328256_1_alg».proof.Proof.Gen.Kernel.Launch
import proofs.«401791_j6786048328256_1_alg».proof.Proof.Gen.Kernel.Skeleton
import proofs.«401791_j6786048328256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (where the pipeline
    does not fetch, the block index has not moved), for any proof data whose array is V's and whose body leaves
    the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staging buffer -/

abbrev rA1 : Rect S10000x64 := Rect.unit (s := S10000x64) ![0, 0] S10000x64.size inb_S10000x64_S10000x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rO1 : Rect S10000x128 := Rect.unit (s := S10000x128) ![0, 0] S10000x128.size inb_S10000x128_S10000x128_0_0

/-- What the body leaves in the output window's staging buffer, from the five input blocks: its one store's
    payload laid over the whole buffer. -/
def out1_5 (a : Vec F S10000x64 .f32) (x : Vec F S10000x64 .f32) (wl : Vec F S64x128 .f32) (wr : Vec F S64x128 .f32) (b : Vec F S1x128 .f32) : Vec F S10000x128 .f32 :=
  View.canon [⟨rO1, k1_pay1 (View.ld a rA1) (View.ld wl rW1) (View.ld x rA1) (View.ld wr rW1) (View.ld b rB1)⟩]

/-- The one store covers the buffer. -/
theorem cover1_5 (p0 : Vec F S10000x128 .f32) (y : S10000x128.Idx) :
    ∃ pc ∈ ([⟨rO1, p0⟩] : List (View.Piece (Elt F) S10000x128 .f32)), y ∈ pc.1.set :=
  View.cover_of_tiled [⟨rO1, p0⟩] S10000x128.size (by rfl) y

set_option maxHeartbeats 1000000 in
/-- The body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S10000x128 .f32) (harg6 : arg6.IsWhole)
    (a : Vec F S10000x64 .f32) (x : Vec F S10000x64 .f32) (wl : Vec F S64x128 .f32) (wr : Vec F S64x128 .f32) (b : Vec F S1x128 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare wr ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare wr ∗ owns (c : Thread nD τ) arg5 fullShare b
            ∗ owns (c : Thread nD τ) arg6 fullShare (out1_5 a x wl wr b)) -∗ K ⟨⟩))
      ⊢ wp frame (wpE (defs₀ (F := F)) Variants.none c none) E (cc1__linear_relu_kernel i arg1 harg1 arg2 harg2 arg3 harg3 arg4 harg4 arg5 harg5 arg6 harg6) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2Defs.lean ====
/-
  Region 2 of the kernel program: the global mean pool, accumulated over the ten row tiles of the hidden
  features. Two scratch buffers live across the grid points: a 512x128 table of per-graph feature sums and a
  1x512 row of per-graph node counts. At the first point the body zeroes both; at every point it adds to the
  sums the product (one-hot of the tile's graph ids)ᵀ · (the tile's features) and to the counts the column sums
  of that one-hot matrix; at the last point it stores sums / max(countsᵀ, 1) into the output's staging buffer,
  which the pipeline writes back there and nowhere else.
  Stated at a parameter V, the contents of the core's buffers when the region is entered: each window's block
  at a point; one point's update of the two accumulators as functions; what the accumulators hold after each
  point (by recursion over the points); the region's invariant (the two scratch buffers at those contents, the
  other scoped buffers and the generator register untouched); the body's triple in each of its three control
  cases (first point, a middle point, last point); the pipeline's proof data; the body obligation.
-/
import proofs.«401791_j6786048328256_1_alg».proof.Proof.Gen.Kernel.Launch
import proofs.«401791_j6786048328256_1_alg».proof.Proof.Gen.Kernel.Skeleton
import proofs.«401791_j6786048328256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The first conditional (zero the accumulators) is taken at the first point only. -/
abbrev condA (i : grid2.Coords) : Prop := (Scalar.cmpi .ne (Scalar.extui (Scalar.cmpi .eq (BitVec.ofNat 32 (i 0).val) 0#32)) 0#32) = 1#1
theorem hcondA : ∀ t : Fin cfg2.N, condA (grid2.coords t) ↔ t.val = 0 :=
  (by decide +kernel : ∀ t : Fin grid2.N, condA (grid2.coords t) ↔ t.val = 0)
/-- The second conditional (divide and store the result) is taken at the last point only. -/
abbrev condB (i : grid2.Coords) : Prop := k2_cond2 i = 1#1
theorem hcondB : ∀ t : Fin cfg2.N, condB (grid2.coords t) ↔ t.val = 9 :=
  (by decide +kernel : ∀ t : Fin grid2.N, condB (grid2.coords t) ↔ t.val = 9)

/-- Where the second conditional is not taken the output window is idle and not written back; where it is taken
    the window is live. -/
theorem idleAt2 : ∀ t : Fin cfg2.N, ¬condB (grid2.coords t) → cfg2.idle 2 (grid2.coords t) = true := by decide +kernel
theorem noFlush2 : ∀ t : Fin cfg2.N, ¬condB (grid2.coords t) → (cfg2.win 2).flush t = false := by decide +kernel
theorem liveAt2 : ∀ t : Fin cfg2.N, condB (grid2.coords t) → cfg2.idle 2 (grid2.coords t) = false := by decide +kernel

/-! ## The body's accesses: every load and store goes through a whole buffer -/

abbrev rH2 : Rect S10000x128 := Rect.unit (s := S10000x128) ![0, 0] S10000x128.size inb_S10000x128_S10000x128_0_0
abbrev rI2 : Rect S10000x1 := Rect.unit (s := S10000x1) ![0, 0] S10000x1.size inb_S10000x1_S10000x1_0_0
abbrev rS2 : Rect S512x128 := Rect.unit (s := S512x128) ![0, 0] S512x128.size inb_S512x128_S512x128_0_0
abbrev rC2 : Rect S1x512 := Rect.unit (s := S1x512) ![0, 0] S1x512.size inb_S1x512_S1x512_0_0

theorem hzS2 : (![0, 0] : Fin S512x128.rank → ℕ) = fun _ => 0 := by funext a; match a with | ⟨0, _⟩ => rfl | ⟨1, _⟩ => rfl
theorem hzC2 : (![0, 0] : Fin S1x512.rank → ℕ) = fun _ => 0 := by funext a; match a with | ⟨0, _⟩ => rfl | ⟨1, _⟩ => rfl

/-- The scratch operands: whole scoped buffers of the kernel's own. -/
abbrev scS2 : Memref sig .tc .vmem S512x128 .f32 := Memref.whole cc2_scratch0
abbrev scC2 : Memref sig .tc .vmem S1x512 .f32 := Memref.whole cc2_scratch1

/-! ## One point's update of the accumulators, and the final quotient -/

/-- The sums after a point, from the tile's features h, its graph ids b and the sums s before it. -/
def stepS (h : Vec F S10000x128 .f32) (b : Vec F S10000x1 .i32) (s : Vec F S512x128 .f32) : Vec F S512x128 .f32 :=
  k2_pay4 (View.ld b rI2) (View.ld h rH2) s
/-- The counts after a point, from the tile's graph ids b and the counts n before it. -/
def stepC (b : Vec F S10000x1 .i32) (n : Vec F S1x512 .f32) : Vec F S1x512 .f32 :=
  k2_pay5 (View.ld b rI2) n

/-- What the two accumulators hold after the body at point n: zero (the first point's reset) or what the point
    before left, updated with the point's blocks. -/
def acc2 (c : Dev nD) : (n : ℕ) → n < cfg2.N → Vec F S512x128 .f32 × Vec F S1x512 .f32
  | 0, hn => (stepS (iblk2 V c 0 ⟨0, hn⟩) (iblk2 V c 1 ⟨0, hn⟩) (k2_pay1 (F := F)), stepC (iblk2 V c 1 ⟨0, hn⟩) (k2_pay2 (F := F)))
  | n + 1, hn => (stepS (iblk2 V c 0 ⟨n + 1, hn⟩) (iblk2 V c 1 ⟨n + 1, hn⟩) (View.ld (acc2 c n (Nat.lt_of_succ_lt hn)).1 rS2),
      stepC (iblk2 V c 1 ⟨n + 1, hn⟩) (View.ld (acc2 c n (Nat.lt_of_succ_lt hn)).2 rC2))

theorem acc2_zero (c : Dev nD) (t : Fin cfg2.N) (h0 : t.val = 0) :
    acc2 V c t.val t.isLt = (stepS (iblk2 V c 0 t) (iblk2 V c 1 t) (k2_pay1 (F := F)), stepC (iblk2 V c 1 t) (k2_pay2 (F := F))) := by
  obtain ⟨n, hn⟩ := t; subst h0; rfl

theorem acc2_pos (c : Dev nD) (t : Fin cfg2.N) (h0 : t.val ≠ 0) :
    acc2 V c t.val t.isLt = (stepS (iblk2 V c 0 t) (iblk2 V c 1 t) (View.ld (acc2 V c (t.val - 1) (Nat.lt_of_le_of_lt (Nat.sub_le _ _) t.isLt)).1 rS2),
      stepC (iblk2 V c 1 t) (View.ld (acc2 V c (t.val - 1) (Nat.lt_of_le_of_lt (Nat.sub_le _ _) t.isLt)).2 rC2)) := by
  obtain ⟨n, hn⟩ := t
  cases n with
  | zero => exact absurd rfl h0
  | succ n => rfl

/-- The quotient the last point stores: sums over max(countsᵀ, 1). -/
def fin2 (s : Vec F S512x128 .f32) (n : Vec F S1x512 .f32) : Vec F S512x128 .f32 := k2_pay6 n s

/-! ## The region's invariant -/

/-- Before the first point: the scoped buffers no window stages (the two scratch buffers among them) at anything and
    the generator register at some state. After point n: the two scratch buffers at what point n left, the other
    scoped buffers at anything, the generator register at some state. -/
def Phi2 (c : Dev nD) : (n : ℕ) → n ≤ cfg2.N → sProp 𝕄
  | 0, _ => Pipeline.ΦA spec2 c
  | n + 1, hn => iprop(owns (c : Thread nD τ) scS2 fullShare (acc2 V c n hn).1 ∗ owns (c : Thread nD τ) scC2 fullShare (acc2 V c n hn).2
      ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scS2 fullShare (acc2 V c n hn).1 ∗ owns (c : Thread nD τ) scC2 fullShare (acc2 V c n hn).2
      ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scS2 fullShare (acc2 V c (n - 1) (by omega)).1 ∗ owns (c : Thread nD τ) scC2 fullShare (acc2 V c (n - 1) (by omega)).2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The class invariant with the two scratch buffers split out as memrefs owned at some contents. -/
theorem PhiA2_eq (c : Dev nD) :
    (Pipeline.ΦA spec2 c : sProp 𝕄)
      = iprop(((((∃ d, owns (c : Thread nD τ) scS2 fullShare d) ∗ (∃ d, owns (c : Thread nD τ) scC2 fullShare d))
          ∗ Pipeline.scopedRestBut (Ix := Unit) (Name := ℕ) (U := UR sig nD τ) (Lvl := ℕ) (Val := Elt F) spec2 c [cc2_scratch0, cc2_scratch1])) ∗ (∃ r, prngReg c r)) := by
  unfold Pipeline.ΦA
  rw [Pipeline.scopedRest_split_of_list (win := spec2) (c := c) [cc2_scratch0, cc2_scratch1] (by decide) (by decide)]
  simp only [scS2, scC2, owns_whole]
  try rfl

/-! ## The pipeline's proof data -/

/-- The proof data of pipeline 2 on core c: the arrays as the region finds them; after the body at point t each
    input's buffer at its block and the output's at the quotient of the two accumulators as point t leaves them
    (consulted at the last point only: elsewhere the window is idle); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => fin2 (acc2 V c t.val t.isLt).1 (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = fin2 (acc2 V c t.val t.isLt).1 (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem Phi2_castSucc (c : Dev nD) (t : Fin cfg2.N) :
    (dat2 V c).Φ t.castSucc = Phi2 V c t.val (Nat.le_of_lt t.isLt) := by
  dsimp only [dat2]; simp only [Fin.coe_castSucc]

end Cert.Kernel.Hand

end
-- ==== Proof.KBody2.lean ====
/-
  Region 2 of the kernel program (the global mean pool accumulated over the ten row tiles): the body's triple in
  each of its three control cases, the body obligation at every point, and the invariant's two ends. The first
  point zeroes the two accumulators and updates them; a middle point updates them from what the point before
  left; the last point updates them and stores sums / max(countsᵀ, 1) into the output's staging buffer. Where
  the final store is not taken the output window is idle: its buffer is handed back as found.
-/
import proofs.«401791_j6786048328256_1_alg».proof.Proof.KBody2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple, case by case -/

set_option maxHeartbeats 2000000 in
/-- FIRST POINT (the reset is taken, the final store is not): the accumulators, found at anything, end at one
    update of zero; the output's buffer is handed back as found. -/
theorem sound_kernel2_first (c : Dev nD) (E : Set ℕ) (i : grid2.Coords) (hA : condA i) (hB : ¬condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (o : Vec F S512x128 .f32) (K : PUnit → sProp 𝕄) :
    iprop(owns (c : Thread nD τ) arg1 fullShare h ∗ owns (c : Thread nD τ) arg2 fullShare b ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare h ∗ owns (c : Thread nD τ) arg2 fullShare b ∗ owns (c : Thread nD τ) arg3 fullShare o
            ∗ owns (c : Thread nD τ) arg4 fullShare (stepS h b (k2_pay1 (F := F))) ∗ owns (c : Thread nD τ) arg5 fullShare (stepC b (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld, View.readCov_unit_zero (S := S512x128) _ hzS2]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld, View.readCov_unit_zero (S := S1x512) _ hzC2]

set_option maxHeartbeats 2000000 in
/-- A MIDDLE POINT (neither conditional is taken): the accumulators, found at s and n, end at one update of them;
    the output's buffer is handed back as found. -/
theorem sound_kernel2_mid (c : Dev nD) (E : Set ℕ) (i : grid2.Coords) (hA : ¬condA i) (hB : ¬condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (o : Vec F S512x128 .f32) (s : Vec F S512x128 .f32) (n : Vec F S1x512 .f32) (K : PUnit → sProp 𝕄) :
    iprop(owns (c : Thread nD τ) arg1 fullShare h ∗ owns (c : Thread nD τ) arg2 fullShare b ∗ owns (c : Thread nD τ) arg3 fullShare o
        ∗ owns (c : Thread nD τ) arg4 fullShare s ∗ owns (c : Thread nD τ) arg5 fullShare n
        ∗ (iprop(owns (c : Thread nD τ) arg1 fullShare h ∗ owns (c : Thread nD τ) arg2 fullShare b ∗ owns (c : Thread nD τ) arg3 fullShare o
            ∗ owns (c : Thread nD τ) arg4 fullShare (stepS h b (View.ld s rS2)) ∗ owns (c : Thread nD τ) arg5 fullShare (stepC b (View.ld n rC2))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld]

set_option maxHeartbeats 2000000 in
/-- THE LAST POINT (the reset is not taken, the final store is): the accumulators end at one update of what the
    point before left, and the output's buffer, found at anything, ends at their quotient. -/
theorem sound_kernel2_last (c : Dev nD) (E : Set ℕ) (i : grid2.Coords) (hA : ¬condA i) (hB : condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (s : Vec F S512x128 .f32) (n : Vec F S1x512 .f32) (K : PUnit → sProp 𝕄) :
    iprop(owns (c : Thread nD τ) arg1 fullShare h ∗ owns (c : Thread nD τ) arg2 fullShare b ∗ (∃ d, owns (c : Thread nD τ) arg3 fullShare d)
        ∗ owns (c : Thread nD τ) arg4 fullShare s ∗ owns (c : Thread nD τ) arg5 fullShare n
        ∗ (iprop(owns (c : Thread nD τ) arg1 fullShare h ∗ owns (c : Thread nD τ) arg2 fullShare b ∗ owns (c : Thread nD τ) arg3 fullShare (fin2 (stepS h b (View.ld s rS2)) (stepC b (View.ld n rC2)))
            ∗ owns (c : Thread nD τ) arg4 fullShare (stepS h b (View.ld s rS2)) ∗ owns (c : Thread nD τ) arg5 fullShare (stepC b (View.ld n rC2))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold fin2 stepS stepC
    simp only [View.readAt_eq_ld, View.readCov_unit_zero (S := S512x128) _ hzS2, View.readCov_unit_zero (S := S1x512) _ hzC2]
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld]

/-! ## The body obligation -/

theorem liveAt2_0 : ∀ t : Fin cfg2.N, cfg2.idle 0 (grid2.coords t) = false := fun _ => rfl
theorem liveAt2_1 : ∀ t : Fin cfg2.N, cfg2.idle 1 (grid2.coords t) = false := fun _ => rfl

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' memrefs hold their blocks; the point's position says which case it is in;
    the invariant hands the body the two accumulators at what the point before left (at anything at the first
    point) and takes them back at this point's contents; the output's buffer is handed back as found except at
    the last point, where it ends at the quotient; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 10 := lt_of_lt_of_eq t.isLt (show cfg2.N = 10 from N_2)
  by_cases h0 : t.val = 0
  · have hA : condA (grid2.coords t) := (hcondA t).mpr h0
    have hB : ¬condB (grid2.coords t) := fun h => by have := (hcondB t).mp h; omega
    rw [Dat.leavesExact_idle (dat2 V c) 2 t (idleAt2 t hB) (noFlush2 t hB)]
    rw [acc2_zero V c t h0]; dsimp only
    rw [Phi2_castSucc V c t, Phi2_zero V c _ _ h0, PhiA2_eq]
    iintro ⟨⟨⟨⟨HS, HC⟩, Hrest⟩, Hg⟩, Ho, ⟨%d0, H0⟩, ⟨%d1, H1⟩, ⟨%d2, H2⟩⟩
    iapply (sound_kernel2_first c Set.univ (grid2.coords t) hA hB _ _ _ _ _ _ _ _ _ _ (iblk2 V c 0 t) (iblk2 V c 1 t) ((dat2 V c).before 2 t d2) _)
    isplitl [H0]; · iexact H0
    isplitl [H1]; · iexact H1
    isplitl [H2]; · iexact H2
    isplitl [HS]; · iexact HS
    isplitl [HC]; · iexact HC
    iintro ⟨H0, H1, H2, HS, HC⟩
    isplitl [HS HC Hrest Hg]
    · isplitl [HS]; · iexact HS
      isplitl [HC]; · iexact HC
      isplitl [Hrest]; · iexact Hrest
      iexact Hg
    isplitl [Ho]; · iexact Ho
    isplitl [H0]; · iexact H0
    isplitl [H1]; · iexact H1
    iexists _; iexact H2
  · have hA : ¬condA (grid2.coords t) := fun h => h0 ((hcondA t).mp h)
    by_cases h9 : t.val = 9
    · have hB : condB (grid2.coords t) := (hcondB t).mpr h9
      rw [show (dat2 V c).leavesExact 2 t = owns (c : Thread nD τ) (st2_2 t) fullShare ((dat2 V c).after 2 t) from by
        unfold Dat.leavesExact; rw [liveAt2 t hB], after2_2]
      rw [acc2_pos V c t h0]; dsimp only
      rw [Phi2_castSucc V c t, Phi2_pos V c _ _ h0]
      iintro ⟨⟨HS, HC, Hrest, Hg⟩, Ho, ⟨%d0, H0⟩, ⟨%d1, H1⟩, ⟨%d2, H2⟩⟩
      iapply (sound_kernel2_last c Set.univ (grid2.coords t) hA hB _ _ _ _ _ _ _ _ _ _ (iblk2 V c 0 t) (iblk2 V c 1 t) _ _ _)
      isplitl [H0]; · iexact H0
      isplitl [H1]; · iexact H1
      isplitl [H2]; · iexists _; iexact H2
      isplitl [HS]; · iexact HS
      isplitl [HC]; · iexact HC
      iintro ⟨H0, H1, H2, HS, HC⟩
      isplitl [HS HC Hrest Hg]
      · isplitl [HS]; · iexact HS
        isplitl [HC]; · iexact HC
        isplitl [Hrest]; · iexact Hrest
        iexact Hg
      isplitl [Ho]; · iexact Ho
      isplitl [H0]; · iexact H0
      isplitl [H1]; · iexact H1
      iexact H2
    · have hB : ¬condB (grid2.coords t) := fun h => h9 ((hcondB t).mp h)
      rw [Dat.leavesExact_idle (dat2 V c) 2 t (idleAt2 t hB) (noFlush2 t hB)]
      rw [acc2_pos V c t h0]; dsimp only
      rw [Phi2_castSucc V c t, Phi2_pos V c _ _ h0]
      iintro ⟨⟨HS, HC, Hrest, Hg⟩, Ho, ⟨%d0, H0⟩, ⟨%d1, H1⟩, ⟨%d2, H2⟩⟩
      iapply (sound_kernel2_mid c Set.univ (grid2.coords t) hA hB _ _ _ _ _ _ _ _ _ _ (iblk2 V c 0 t) (iblk2 V c 1 t) ((dat2 V c).before 2 t d2) _ _ _)
      isplitl [H0]; · iexact H0
      isplitl [H1]; · iexact H1
      isplitl [H2]; · iexact H2
      isplitl [HS]; · iexact HS
      isplitl [HC]; · iexact HC
      iintro ⟨H0, H1, H2, HS, HC⟩
      isplitl [HS HC Hrest Hg]
      · isplitl [HS]; · iexact HS
        isplitl [HC]; · iexact HC
        isplitl [Hrest]; · iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the class's back: the accumulators' named contents are forgotten. -/
theorem Phi2_last (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨HS, HC, Hrest, Hg⟩
  isplitr [Hg]
  · isplitr [Hrest]
    · isplitl [HS]
      · iexists _; iexact HS
      iexists _; iexact HC
    iexact Hrest
  iexact Hg

end Cert.Kernel.Hand

end
-- ==== Proof.KRun.lean ====
/-
  The kernel program's run, assembled: the contents the three regions leave in their output arrays (each the
  fold of its write-backs over the contents the region was entered with), the proof data of the three pipelines
  at their entry contents, each region as a segment between the host stretches, and the run itself: every weakly
  fair execution terminates, nothing faulting, with every unscoped buffer of every core at the last contents —
  from which the frame (the arguments unchanged) and the result's value are read.
-/
import proofs.«401791_j6786048328256_1_alg».proof.Proof.KBody0
import proofs.«401791_j6786048328256_1_alg».proof.Proof.KBody1
import proofs.«401791_j6786048328256_1_alg».proof.Proof.KBody2
import proofs.«401791_j6786048328256_1_alg».proof.Proof.Gen.Kernel.Regions
import proofs.«401791_j6786048328256_1_alg».proof.Proof.KRunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- The three regions' outputs as one family: the three given at their references, the launch contents elsewhere
    (read nowhere). -/
def mkOuts (o2 : (c : Dev nD) → Buf (Elt F) ((c : Thread nD τ).loc main_v26)) (o4 : (c : Dev nD) → Buf (Elt F) ((c : Thread nD τ).loc main_v41))
    (o6 : (c : Dev nD) → Buf (Elt F) ((c : Thread nD τ).loc main_v43)) : Outs (F := F) :=
  fun _ r c => if h : r = main_v26 then h ▸ o2 c else if h' : r = main_v41 then h' ▸ o4 c else if h'' : r = main_v43 then h'' ▸ o6 c
    else m ((c : Thread nD τ).loc r)

theorem mkOuts_v26 (o2 o4 o6) (J : ℕ) (c : Dev nD) : mkOuts m o2 o4 o6 J main_v26 c = o2 c := by
  unfold mkOuts; rw [dif_pos rfl]
theorem mkOuts_v41 (o2 o4 o6) (J : ℕ) (c : Dev nD) : mkOuts m o2 o4 o6 J main_v41 c = o4 c := by
  unfold mkOuts; rw [dif_neg (by decide), dif_pos rfl]
theorem mkOuts_v43 (o2 o4 o6) (J : ℕ) (c : Dev nD) : mkOuts m o2 o4 o6 J main_v43 c = o6 c := by
  unfold mkOuts; rw [dif_neg (by decide), dif_neg (by decide), dif_pos rfl]

/-- Region 0 is entered with the contents after the first host stretch; -/
abbrev T1 (c : Dev nD) (b : Ref sig .tc) : Buf (Elt F) ((c : Thread nD τ).loc b) := V1 m c b
/-- it leaves in its output array the fold of its ten write-backs. -/
def o2 (c : Dev nD) : Buf (Elt F) ((c : Thread nD τ).loc main_v26) := (dat0 (T1 m) c).arrAt 5 cfg0.N
def outsA : Outs (F := F) := mkOuts m (o2 m) (fun c => m ((c : Thread nD τ).loc main_v41)) (fun c => m ((c : Thread nD τ).loc main_v43))
/-- Region 1 is entered with the contents after the second host stretch, which read region 0's output; -/
abbrev T3 (c : Dev nD) (b : Ref sig .tc) : Buf (Elt F) ((c : Thread nD τ).loc b) := V3 m (outsA m) c b
def o4 (c : Dev nD) : Buf (Elt F) ((c : Thread nD τ).loc main_v41) := (dat1 (T3 m) c).arrAt 5 cfg1.N
def outsB : Outs (F := F) := mkOuts m (o2 m) (o4 m) (fun c => m ((c : Thread nD τ).loc main_v43))
/-- Region 2 is entered with the contents after the third host stretch; it writes its output once, at the last point. -/
abbrev T5 (c : Dev nD) (b : Ref sig .tc) : Buf (Elt F) ((c : Thread nD τ).loc b) := V5 m (outsB m) c b
def o6 (c : Dev nD) : Buf (Elt F) ((c : Thread nD τ).loc main_v43) := (dat2 (T5 m) c).arrAt 2 cfg2.N
/-- What the three regions leave. -/
def outs : Outs (F := F) := mkOuts m (o2 m) (o4 m) (o6 m)

theorem outs_v26 (J : ℕ) (c : Dev nD) : outs m J main_v26 c = o2 m c := mkOuts_v26 m _ _ _ J c
theorem outs_v41 (J : ℕ) (c : Dev nD) : outs m J main_v41 c = o4 m c := mkOuts_v41 m _ _ _ J c
theorem outs_v43 (J : ℕ) (c : Dev nD) : outs m J main_v43 c = o6 m c := mkOuts_v43 m _ _ _ J c

/-- The contents between the items depend on the family only through the outputs already written. -/
theorem V2_outs (c : Dev nD) : V2 m (outs m) c = V2 m (outsA m) c := by
  show Function.update (V1 m c) _ (outs m 2 main_v26 c) = Function.update (V1 m c) _ (outsA m 2 main_v26 c)
  rw [outs_v26]; unfold outsA; rw [mkOuts_v26]
theorem V3_outs (c : Dev nD) : V3 m (outs m) c = V3 m (outsA m) c := by
  show StableHlo.after hostOps1 (V2 m (outs m) c) = StableHlo.after hostOps1 (V2 m (outsA m) c)
  rw [V2_outs]
theorem V2_outsB (c : Dev nD) : V2 m (outsB m) c = V2 m (outsA m) c := by
  show Function.update (V1 m c) _ (outsB m 2 main_v26 c) = Function.update (V1 m c) _ (outsA m 2 main_v26 c)
  unfold outsB outsA; rw [mkOuts_v26, mkOuts_v26]
theorem V3_outsB (c : Dev nD) : V3 m (outsB m) c = V3 m (outsA m) c := by
  show StableHlo.after hostOps1 (V2 m (outsB m) c) = StableHlo.after hostOps1 (V2 m (outsA m) c)
  rw [V2_outsB]
theorem V4_outs (c : Dev nD) : V4 m (outs m) c = V4 m (outsB m) c := by
  show Function.update (V3 m (outs m) c) _ (outs m 4 main_v41 c) = Function.update (V3 m (outsB m) c) _ (outsB m 4 main_v41 c)
  rw [V3_outs, V3_outsB, outs_v41]; unfold outsB; rw [mkOuts_v41]
theorem V5_outs (c : Dev nD) : V5 m (outs m) c = V5 m (outsB m) c := by
  show StableHlo.after hostOps2 (V4 m (outs m) c) = StableHlo.after hostOps2 (V4 m (outsB m) c)
  rw [V4_outs]

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-! ## Each region's arrays at its exit -/

abbrev T2 (c : Dev nD) (b : Ref sig .tc) : Buf (Elt F) ((c : Thread nD τ).loc b) := V2 m (outs m) c b
abbrev T4 (c : Dev nD) (b : Ref sig .tc) : Buf (Elt F) ((c : Thread nD τ).loc b) := V4 m (outs m) c b
abbrev T6 (c : Dev nD) (b : Ref sig .tc) : Buf (Elt F) ((c : Thread nD τ).loc b) := V6 m (outs m) c b

theorem hrest0 (c : Dev nD) : ∀ b, b ∉ Finset.univ.image (Pipeline.arrRef spec0) → T2 m c b = T1 m c b := fun b hb =>
  V2_of m (outs m) c b (by
    intro h; rw [List.mem_singleton] at h; subst h
    exact hb (Finset.mem_image.mpr ⟨5, Finset.mem_univ _, rfl⟩))
theorem hrest1 (c : Dev nD) : ∀ b, b ∉ Finset.univ.image (Pipeline.arrRef spec1) → T4 m c b = T3 m c b := fun b hb => by
  show V4 m (outs m) c b = V3 m (outsA m) c b
  rw [← V3_outs]
  exact V4_of m (outs m) c b (by
    intro h; rw [List.mem_singleton] at h; subst h
    exact hb (Finset.mem_image.mpr ⟨5, Finset.mem_univ _, rfl⟩))
theorem hrest2 (c : Dev nD) : ∀ b, b ∉ Finset.univ.image (Pipeline.arrRef spec2) → T6 m c b = T5 m c b := fun b hb => by
  show V6 m (outs m) c b = V5 m (outsB m) c b
  rw [← V5_outs]
  exact V6_of m (outs m) c b (by
    intro h; rw [List.mem_singleton] at h; subst h
    exact hb (Finset.mem_image.mpr ⟨2, Finset.mem_univ _, rfl⟩))

/-- An input window's array is never written: it holds at the exit what it held at the entry. -/
theorem hF0 (c : Dev nD) (w : Fin cfg0.W) : (pdats m 0 c).arrAt w cfg0.N = T2 m c (Pipeline.arrRef spec0 w) := by
  match w with
  | ⟨0, _⟩ => exact (((dat0 (T1 m) c).arrAt_in 0 rfl _).trans (A_eq0 (T1 m) c 0)).trans (V2_of m (outs m) c _ (by decide)).symm
  | ⟨1, _⟩ => exact (((dat0 (T1 m) c).arrAt_in 1 rfl _).trans (A_eq0 (T1 m) c 1)).trans (V2_of m (outs m) c _ (by decide)).symm
  | ⟨2, _⟩ => exact (((dat0 (T1 m) c).arrAt_in 2 rfl _).trans (A_eq0 (T1 m) c 2)).trans (V2_of m (outs m) c _ (by decide)).symm
  | ⟨3, _⟩ => exact (((dat0 (T1 m) c).arrAt_in 3 rfl _).trans (A_eq0 (T1 m) c 3)).trans (V2_of m (outs m) c _ (by decide)).symm
  | ⟨4, _⟩ => exact (((dat0 (T1 m) c).arrAt_in 4 rfl _).trans (A_eq0 (T1 m) c 4)).trans (V2_of m (outs m) c _ (by decide)).symm
  | ⟨5, _⟩ =>
    show (dat0 (T1 m) c).arrAt 5 cfg0.N = Function.update (V1 m c) _ (outs m 2 main_v26 c) _
    rw [Function.update_self, outs_v26]; rfl
theorem hF1 (c : Dev nD) (w : Fin cfg1.W) : (pdats m 1 c).arrAt w cfg1.N = T4 m c (Pipeline.arrRef spec1 w) := by
  have hV : ∀ b : Ref sig .tc, b ∉ ([main_v41] : List (Ref sig .tc)) → V4 m (outs m) c b = V3 m (outsA m) c b := fun b hb => by
    rw [← V3_outs]; exact V4_of m (outs m) c b hb
  match w with
  | ⟨0, _⟩ => exact (((dat1 (T3 m) c).arrAt_in 0 rfl _).trans (A_eq1 (T3 m) c 0)).trans (hV _ (by decide)).symm
  | ⟨1, _⟩ => exact (((dat1 (T3 m) c).arrAt_in 1 rfl _).trans (A_eq1 (T3 m) c 1)).trans (hV _ (by decide)).symm
  | ⟨2, _⟩ => exact (((dat1 (T3 m) c).arrAt_in 2 rfl _).trans (A_eq1 (T3 m) c 2)).trans (hV _ (by decide)).symm
  | ⟨3, _⟩ => exact (((dat1 (T3 m) c).arrAt_in 3 rfl _).trans (A_eq1 (T3 m) c 3)).trans (hV _ (by decide)).symm
  | ⟨4, _⟩ => exact (((dat1 (T3 m) c).arrAt_in 4 rfl _).trans (A_eq1 (T3 m) c 4)).trans (hV _ (by decide)).symm
  | ⟨5, _⟩ =>
    show (dat1 (T3 m) c).arrAt 5 cfg1.N = Function.update (V3 m (outs m) c) _ (outs m 4 main_v41 c) _
    rw [Function.update_self, outs_v41]; rfl
theorem hF2 (c : Dev nD) (w : Fin cfg2.W) : (pdats m 2 c).arrAt w cfg2.N = T6 m c (Pipeline.arrRef spec2 w) := by
  have hV : ∀ b : Ref sig .tc, b ∉ ([main_v43] : List (Ref sig .tc)) → V6 m (outs m) c b = V5 m (outsB m) c b := fun b hb => by
    rw [← V5_outs]; exact V6_of m (outs m) c b hb
  match w with
  | ⟨0, _⟩ => exact (((dat2 (T5 m) c).arrAt_in 0 rfl _).trans (A_eq2 (T5 m) c 0)).trans (hV _ (by decide)).symm
  | ⟨1, _⟩ => exact (((dat2 (T5 m) c).arrAt_in 1 rfl _).trans (A_eq2 (T5 m) c 1)).trans (hV _ (by decide)).symm
  | ⟨2, _⟩ =>
    show (dat2 (T5 m) c).arrAt 2 cfg2.N = Function.update (V5 m (outs m) c) _ (outs m 6 main_v43 c) _
    rw [Function.update_self, outs_v43]; rfl

/-! ## The regions as segments -/

-- unification of a library lemma stated over the pinned configuration with the printed one unfolds plain definitions in a
-- metavariable's type
set_option backward.isDefEq.respectTransparency.types false in
/-- REGION 0 over the thread state: entered from every unscoped buffer at the contents before it, left at the
    contents after it. Its arrays are split out of the unscoped buffers and put back at what the write-backs leave;
    the generator register goes into the region's invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a
-- metavariable's type
set_option backward.isDefEq.respectTransparency.types false in
/-- REGION 1 over the thread state: entered from every unscoped buffer at the contents before it, left at the
    contents after it. Its arrays are split out of the unscoped buffers and put back at what the write-backs leave;
    the generator register goes into the region's invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a
-- metavariable's type
set_option backward.isDefEq.respectTransparency.types false in
/-- REGION 2 over the thread state: entered from every unscoped buffer at the contents before it, left at the
    contents after it. Its arrays are split out of the unscoped buffers and put back at what the write-backs leave;
    the generator register goes into the region's invariant and comes out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last (T5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the conditional run's implicit arguments are found by unifying its conclusion with this one, which takes unfolding plain
-- definitions in a metavariable's type
set_option backward.isDefEq.respectTransparency.types false in
/-- THE RUN. From any memory with zero counters, every weakly fair execution of the program terminates, nothing
    faulting, and every final state holds every unscoped buffer of every core at the last contents: the launch
    memory, folded through the three host stretches and the three regions' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V6 m (outs m) c b) :=
  Cert.Kernel.GenP.run_cond m (emb₁) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => .rfl)
    (R1 := reg1 m) (hpre1 := fun c => by rw [V3_outs]; exact .rfl) (hpost1 := fun c => .rfl)
    (R2 := reg2 m) (hpre2 := fun c => by rw [V5_outs]; exact .rfl) (hpost2 := fun c => .rfl)

/-- An unscoped reference of the TensorCore is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched (no host stretch writes one, no region may change one). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c)⟩) (run_all m ρ)

/-- THE RESULT: the result array ends at what region 2 leaves in it, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v43) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v43 (by decide))).trans ((show V6 m (outs m) c main_v43 = outs m 6 main_v43 c from Function.update_self ..).trans (outs_v43 m 6 c)),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c)⟩) (run_all m ρ)

end Cert.Kernel.Hand

end
-- ==== Proof.Body0.lean ====
/-
  Region 0 of the kernel program: one row tile of the first SAGE layer.
  At grid point t the body reads the t-th block of 10000 rows of the mean-aggregated node features and of the node features,
  the two 32x64 weight matrices and the 1x64 bias row, and stores max(agg·W_l + x·W_r + b, 0) over the t-th
  block of 10000 rows of the layer's output. Stated at a parameter V, the contents of the core's buffers when
  the region is entered: each window's block at a point; what the one store leaves in the output's staging
  buffer as a function of the input blocks; the body's triple; the pipeline's proof data (every input left in
  place, the output at that function of the point's input blocks, nothing carried from point to point); and
  the body obligation at every point.
-/
import proofs.«401791_j6786048328256_1_alg».proof.Proof.Gen.KernelIdeal.Launch
import proofs.«401791_j6786048328256_1_alg».proof.Proof.Gen.KernelIdeal.Skeleton
import proofs.«401791_j6786048328256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (where the pipeline
    does not fetch, the block index has not moved), for any proof data whose array is V's and whose body leaves
    the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole staging buffer -/

abbrev rA0 : Rect S10000x32 := Rect.unit (s := S10000x32) ![0, 0] S10000x32.size inb_S10000x32_S10000x32_0_0
abbrev rW0 : Rect S32x64 := Rect.unit (s := S32x64) ![0, 0] S32x64.size inb_S32x64_S32x64_0_0
abbrev rB0 : Rect S1x64 := Rect.unit (s := S1x64) ![0, 0] S1x64.size inb_S1x64_S1x64_0_0
abbrev rO0 : Rect S10000x64 := Rect.unit (s := S10000x64) ![0, 0] S10000x64.size inb_S10000x64_S10000x64_0_0

/-- What the body leaves in the output window's staging buffer, from the five input blocks: its one store's
    payload laid over the whole buffer. -/
def out0_5 (a : Vec F S10000x32 .f32) (x : Vec F S10000x32 .f32) (wl : Vec F S32x64 .f32) (wr : Vec F S32x64 .f32) (b : Vec F S1x64 .f32) : Vec F S10000x64 .f32 :=
  View.canon [⟨rO0, k0_pay1 (View.ld a rA0) (View.ld wl rW0) (View.ld x rA0) (View.ld wr rW0) (View.ld b rB0)⟩]

/-- The one store covers the buffer. -/
theorem cover0_5 (p0 : Vec F S10000x64 .f32) (y : S10000x64.Idx) :
    ∃ pc ∈ ([⟨rO0, p0⟩] : List (View.Piece (Elt F) S10000x64 .f32)), y ∈ pc.1.set :=
  View.cover_of_tiled [⟨rO0, p0⟩] S10000x64.size (by rfl) y

set_option maxHeartbeats 1000000 in
/-- The body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S10000x32 .f32) (harg1 : arg1.IsWhole) (arg2 : Memref sig .tc .vmem S10000x32 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S1x64 .f32) (harg5 : arg5.IsWhole) (arg6 : Memref sig .tc .vmem S10000x64 .f32) (harg6 : arg6.IsWhole)
    (a : Vec F S10000x32 .f32) (x : Vec F S10000x32 .f32) (wl : Vec F S32x64 .f32) (wr : Vec F S32x64 .f32) (b : Vec F S1x64 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare wr ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare wr ∗ owns (c : Thread nD τ) arg5 fullShare b
            ∗ owns (c : Thread nD τ) arg6 fullShare (out0_5 a x wl wr b)) -∗ K ⟨⟩))
      ⊢ wp frame (wpE (defs₀ (F := F)) Variants.none c none) E (cc0__linear_relu_kernel i arg1 harg1 arg2 harg2 arg3 harg3 arg4 harg4 arg5 harg5 arg6 harg6) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at `out0_5` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1 of the kernel program: one row tile of the second SAGE layer.
  At grid point t the body reads the t-th block of 10000 rows of the mean-aggregated hidden features and of the hidden features,
  the two 64x128 weight matrices and the 1x128 bias row, and stores max(agg·W_l + x·W_r + b, 0) over the t-th
  block of 10000 rows of the layer's output. Stated at a parameter V, the contents of the core's buffers when
  the region is entered: each window's block at a point; what the one store leaves in the output's staging
  buffer as a function of the input blocks; the body's triple; the pipeline's proof data (every input left in
  place, the output at that function of the point's input blocks, nothing carried from point to point); and
  the body obligation at every point.
-/
import proofs.«401791_j6786048328256_1_alg».proof.Proof.Gen.KernelIdeal.Launch
import proofs.«401791_j6786048328256_1_alg».proof.Proof.Gen.KernelIdeal.Skeleton
import proofs.«401791_j6786048328256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (where the pipeline
    does not fetch, the block index has not moved), for any proof data whose array is V's and whose body leaves
    the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staging buffer -/

abbrev rA1 : Rect S10000x64 := Rect.unit (s := S10000x64) ![0, 0] S10000x64.size inb_S10000x64_S10000x64_0_0
abbrev rW1 : Rect S64x128 := Rect.unit (s := S64x128) ![0, 0] S64x128.size inb_S64x128_S64x128_0_0
abbrev rB1 : Rect S1x128 := Rect.unit (s := S1x128) ![0, 0] S1x128.size inb_S1x128_S1x128_0_0
abbrev rO1 : Rect S10000x128 := Rect.unit (s := S10000x128) ![0, 0] S10000x128.size inb_S10000x128_S10000x128_0_0

/-- What the body leaves in the output window's staging buffer, from the five input blocks: its one store's
    payload laid over the whole buffer. -/
def out1_5 (a : Vec F S10000x64 .f32) (x : Vec F S10000x64 .f32) (wl : Vec F S64x128 .f32) (wr : Vec F S64x128 .f32) (b : Vec F S1x128 .f32) : Vec F S10000x128 .f32 :=
  View.canon [⟨rO1, k1_pay1 (View.ld a rA1) (View.ld wl rW1) (View.ld x rA1) (View.ld wr rW1) (View.ld b rB1)⟩]

/-- The one store covers the buffer. -/
theorem cover1_5 (p0 : Vec F S10000x128 .f32) (y : S10000x128.Idx) :
    ∃ pc ∈ ([⟨rO1, p0⟩] : List (View.Piece (Elt F) S10000x128 .f32)), y ∈ pc.1.set :=
  View.cover_of_tiled [⟨rO1, p0⟩] S10000x128.size (by rfl) y

set_option maxHeartbeats 1000000 in
/-- The body on whole staging memrefs, the inputs' at read contents and the output's at anything, runs to the
    continuation holding the inputs' as they were and the output's at `out1_5` of the inputs'. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S10000x128 .f32) (harg6 : arg6.IsWhole)
    (a : Vec F S10000x64 .f32) (x : Vec F S10000x64 .f32) (wl : Vec F S64x128 .f32) (wr : Vec F S64x128 .f32) (b : Vec F S1x128 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare wr ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare wr ∗ owns (c : Thread nD τ) arg5 fullShare b
            ∗ owns (c : Thread nD τ) arg6 fullShare (out1_5 a x wl wr b)) -∗ K ⟨⟩))
      ⊢ wp frame (wpE (defs₀ (F := F)) Variants.none c none) E (cc1__linear_relu_kernel i arg1 harg1 arg2 harg2 arg3 harg3 arg4 harg4 arg5 harg5 arg6 harg6) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2Defs.lean ====
/-
  Region 2 of the kernel program: the global mean pool, accumulated over the ten row tiles of the hidden
  features. Two scratch buffers live across the grid points: a 512x128 table of per-graph feature sums and a
  1x512 row of per-graph node counts. At the first point the body zeroes both; at every point it adds to the
  sums the product (one-hot of the tile's graph ids)ᵀ · (the tile's features) and to the counts the column sums
  of that one-hot matrix; at the last point it stores sums / max(countsᵀ, 1) into the output's staging buffer,
  which the pipeline writes back there and nowhere else.
  Stated at a parameter V, the contents of the core's buffers when the region is entered: each window's block
  at a point; one point's update of the two accumulators as functions; what the accumulators hold after each
  point (by recursion over the points); the region's invariant (the two scratch buffers at those contents, the
  other scoped buffers and the generator register untouched); the body's triple in each of its three control
  cases (first point, a middle point, last point); the pipeline's proof data; the body obligation.
-/
import proofs.«401791_j6786048328256_1_alg».proof.Proof.Gen.KernelIdeal.Launch
import proofs.«401791_j6786048328256_1_alg».proof.Proof.Gen.KernelIdeal.Skeleton
import proofs.«401791_j6786048328256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The first conditional (zero the accumulators) is taken at the first point only. -/
abbrev condA (i : grid2.Coords) : Prop := (Scalar.cmpi .ne (Scalar.extui (Scalar.cmpi .eq (BitVec.ofNat 32 (i 0).val) 0#32)) 0#32) = 1#1
theorem hcondA : ∀ t : Fin cfg2.N, condA (grid2.coords t) ↔ t.val = 0 :=
  (by decide +kernel : ∀ t : Fin grid2.N, condA (grid2.coords t) ↔ t.val = 0)
/-- The second conditional (divide and store the result) is taken at the last point only. -/
abbrev condB (i : grid2.Coords) : Prop := k2_cond2 i = 1#1
theorem hcondB : ∀ t : Fin cfg2.N, condB (grid2.coords t) ↔ t.val = 9 :=
  (by decide +kernel : ∀ t : Fin grid2.N, condB (grid2.coords t) ↔ t.val = 9)

/-- Where the second conditional is not taken the output window is idle and not written back; where it is taken
    the window is live. -/
theorem idleAt2 : ∀ t : Fin cfg2.N, ¬condB (grid2.coords t) → cfg2.idle 2 (grid2.coords t) = true := by decide +kernel
theorem noFlush2 : ∀ t : Fin cfg2.N, ¬condB (grid2.coords t) → (cfg2.win 2).flush t = false := by decide +kernel
theorem liveAt2 : ∀ t : Fin cfg2.N, condB (grid2.coords t) → cfg2.idle 2 (grid2.coords t) = false := by decide +kernel

/-! ## The body's accesses: every load and store goes through a whole buffer -/

abbrev rH2 : Rect S10000x128 := Rect.unit (s := S10000x128) ![0, 0] S10000x128.size inb_S10000x128_S10000x128_0_0
abbrev rI2 : Rect S10000x1 := Rect.unit (s := S10000x1) ![0, 0] S10000x1.size inb_S10000x1_S10000x1_0_0
abbrev rS2 : Rect S512x128 := Rect.unit (s := S512x128) ![0, 0] S512x128.size inb_S512x128_S512x128_0_0
abbrev rC2 : Rect S1x512 := Rect.unit (s := S1x512) ![0, 0] S1x512.size inb_S1x512_S1x512_0_0

theorem hzS2 : (![0, 0] : Fin S512x128.rank → ℕ) = fun _ => 0 := by funext a; match a with | ⟨0, _⟩ => rfl | ⟨1, _⟩ => rfl
theorem hzC2 : (![0, 0] : Fin S1x512.rank → ℕ) = fun _ => 0 := by funext a; match a with | ⟨0, _⟩ => rfl | ⟨1, _⟩ => rfl

/-- The scratch operands: whole scoped buffers of the kernel's own. -/
abbrev scS2 : Memref sig .tc .vmem S512x128 .f32 := Memref.whole cc2_scratch0
abbrev scC2 : Memref sig .tc .vmem S1x512 .f32 := Memref.whole cc2_scratch1

/-! ## One point's update of the accumulators, and the final quotient -/

/-- The sums after a point, from the tile's features h, its graph ids b and the sums s before it. -/
def stepS (h : Vec F S10000x128 .f32) (b : Vec F S10000x1 .i32) (s : Vec F S512x128 .f32) : Vec F S512x128 .f32 :=
  k2_pay4 (View.ld b rI2) (View.ld h rH2) s
/-- The counts after a point, from the tile's graph ids b and the counts n before it. -/
def stepC (b : Vec F S10000x1 .i32) (n : Vec F S1x512 .f32) : Vec F S1x512 .f32 :=
  k2_pay5 (View.ld b rI2) n

/-- What the two accumulators hold after the body at point n: zero (the first point's reset) or what the point
    before left, updated with the point's blocks. -/
def acc2 (c : Dev nD) : (n : ℕ) → n < cfg2.N → Vec F S512x128 .f32 × Vec F S1x512 .f32
  | 0, hn => (stepS (iblk2 V c 0 ⟨0, hn⟩) (iblk2 V c 1 ⟨0, hn⟩) (k2_pay1 (F := F)), stepC (iblk2 V c 1 ⟨0, hn⟩) (k2_pay2 (F := F)))
  | n + 1, hn => (stepS (iblk2 V c 0 ⟨n + 1, hn⟩) (iblk2 V c 1 ⟨n + 1, hn⟩) (View.ld (acc2 c n (Nat.lt_of_succ_lt hn)).1 rS2),
      stepC (iblk2 V c 1 ⟨n + 1, hn⟩) (View.ld (acc2 c n (Nat.lt_of_succ_lt hn)).2 rC2))

theorem acc2_zero (c : Dev nD) (t : Fin cfg2.N) (h0 : t.val = 0) :
    acc2 V c t.val t.isLt = (stepS (iblk2 V c 0 t) (iblk2 V c 1 t) (k2_pay1 (F := F)), stepC (iblk2 V c 1 t) (k2_pay2 (F := F))) := by
  obtain ⟨n, hn⟩ := t; subst h0; rfl

theorem acc2_pos (c : Dev nD) (t : Fin cfg2.N) (h0 : t.val ≠ 0) :
    acc2 V c t.val t.isLt = (stepS (iblk2 V c 0 t) (iblk2 V c 1 t) (View.ld (acc2 V c (t.val - 1) (Nat.lt_of_le_of_lt (Nat.sub_le _ _) t.isLt)).1 rS2),
      stepC (iblk2 V c 1 t) (View.ld (acc2 V c (t.val - 1) (Nat.lt_of_le_of_lt (Nat.sub_le _ _) t.isLt)).2 rC2)) := by
  obtain ⟨n, hn⟩ := t
  cases n with
  | zero => exact absurd rfl h0
  | succ n => rfl

/-- The quotient the last point stores: sums over max(countsᵀ, 1). -/
def fin2 (s : Vec F S512x128 .f32) (n : Vec F S1x512 .f32) : Vec F S512x128 .f32 := k2_pay6 n s

/-! ## The region's invariant -/

/-- Before the first point: the scoped buffers no window stages (the two scratch buffers among them) at anything and
    the generator register at some state. After point n: the two scratch buffers at what point n left, the other
    scoped buffers at anything, the generator register at some state. -/
def Phi2 (c : Dev nD) : (n : ℕ) → n ≤ cfg2.N → sProp 𝕄
  | 0, _ => Pipeline.ΦA spec2 c
  | n + 1, hn => iprop(owns (c : Thread nD τ) scS2 fullShare (acc2 V c n hn).1 ∗ owns (c : Thread nD τ) scC2 fullShare (acc2 V c n hn).2
      ∗ Pipeline.scopedRestBut (Ix := Unit) (Name := ℕ) (U := UR sig nD τ) (Lvl := ℕ) (Val := Elt F) spec2 c [cc2_scratch0, cc2_scratch1] ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scS2 fullShare (acc2 V c n hn).1 ∗ owns (c : Thread nD τ) scC2 fullShare (acc2 V c n hn).2
      ∗ Pipeline.scopedRestBut (Ix := Unit) (Name := ℕ) (U := UR sig nD τ) (Lvl := ℕ) (Val := Elt F) spec2 c [cc2_scratch0, cc2_scratch1] ∗ (∃ r, prngReg c r)) := rfl

theorem Phi2_pos (c : Dev nD) (n : ℕ) (h : n ≤ cfg2.N) (hz : n ≠ 0) :
    Phi2 V c n h = iprop(owns (c : Thread nD τ) scS2 fullShare (acc2 V c (n - 1) (by omega)).1 ∗ owns (c : Thread nD τ) scC2 fullShare (acc2 V c (n - 1) (by omega)).2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The class invariant with the two scratch buffers split out as memrefs owned at some contents. -/
theorem PhiA2_eq (c : Dev nD) :
    (Pipeline.ΦA spec2 c : sProp 𝕄)
      = iprop(((((∃ d, owns (c : Thread nD τ) scS2 fullShare d) ∗ (∃ d, owns (c : Thread nD τ) scC2 fullShare d))
          ∗ Pipeline.scopedRestBut (Ix := Unit) (Name := ℕ) (U := UR sig nD τ) (Lvl := ℕ) (Val := Elt F) spec2 c [cc2_scratch0, cc2_scratch1])) ∗ (∃ r, prngReg c r)) := by
  unfold Pipeline.ΦA
  rw [Pipeline.scopedRest_split_of_list (win := spec2) (c := c) [cc2_scratch0, cc2_scratch1] (by decide) (by decide)]
  simp only [scS2, scC2, owns_whole]
  try rfl

/-! ## The pipeline's proof data -/

/-- The proof data of pipeline 2 on core c: the arrays as the region finds them; after the body at point t each
    input's buffer at its block and the output's at the quotient of the two accumulators as point t leaves them
    (consulted at the last point only: elsewhere the window is idle); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => fin2 (acc2 V c t.val t.isLt).1 (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = fin2 (acc2 V c t.val t.isLt).1 (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem Phi2_castSucc (c : Dev nD) (t : Fin cfg2.N) :
    (dat2 V c).Φ t.castSucc = Phi2 V c t.val (Nat.le_of_lt t.isLt) := by
  dsimp only [dat2]; simp only [Fin.coe_castSucc]

end Cert.KernelIdeal.Hand

end
-- ==== Proof.Body2.lean ====
/-
  Region 2 of the kernel program (the global mean pool accumulated over the ten row tiles): the body's triple in
  each of its three control cases, the body obligation at every point, and the invariant's two ends. The first
  point zeroes the two accumulators and updates them; a middle point updates them from what the point before
  left; the last point updates them and stores sums / max(countsᵀ, 1) into the output's staging buffer. Where
  the final store is not taken the output window is idle: its buffer is handed back as found.
-/
import proofs.«401791_j6786048328256_1_alg».proof.Proof.Body2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple, case by case -/

set_option maxHeartbeats 2000000 in
/-- FIRST POINT (the reset is taken, the final store is not): the accumulators, found at anything, end at one
    update of zero; the output's buffer is handed back as found. -/
theorem sound_kernel2_first (c : Dev nD) (E : Set ℕ) (i : grid2.Coords) (hA : condA i) (hB : ¬condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (o : Vec F S512x128 .f32) (K : PUnit → sProp 𝕄) :
    iprop(owns (c : Thread nD τ) arg1 fullShare h ∗ owns (c : Thread nD τ) arg2 fullShare b ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare h ∗ owns (c : Thread nD τ) arg2 fullShare b ∗ owns (c : Thread nD τ) arg3 fullShare o
            ∗ owns (c : Thread nD τ) arg4 fullShare (stepS h b (k2_pay1 (F := F))) ∗ owns (c : Thread nD τ) arg5 fullShare (stepC b (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld, View.readCov_unit_zero (S := S512x128) _ hzS2]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld, View.readCov_unit_zero (S := S1x512) _ hzC2]

set_option maxHeartbeats 2000000 in
/-- A MIDDLE POINT (neither conditional is taken): the accumulators, found at s and n, end at one update of them;
    the output's buffer is handed back as found. -/
theorem sound_kernel2_mid (c : Dev nD) (E : Set ℕ) (i : grid2.Coords) (hA : ¬condA i) (hB : ¬condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (o : Vec F S512x128 .f32) (s : Vec F S512x128 .f32) (n : Vec F S1x512 .f32) (K : PUnit → sProp 𝕄) :
    iprop(owns (c : Thread nD τ) arg1 fullShare h ∗ owns (c : Thread nD τ) arg2 fullShare b ∗ owns (c : Thread nD τ) arg3 fullShare o
        ∗ owns (c : Thread nD τ) arg4 fullShare s ∗ owns (c : Thread nD τ) arg5 fullShare n
        ∗ (iprop(owns (c : Thread nD τ) arg1 fullShare h ∗ owns (c : Thread nD τ) arg2 fullShare b ∗ owns (c : Thread nD τ) arg3 fullShare o
            ∗ owns (c : Thread nD τ) arg4 fullShare (stepS h b (View.ld s rS2)) ∗ owns (c : Thread nD τ) arg5 fullShare (stepC b (View.ld n rC2))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld]

set_option maxHeartbeats 2000000 in
/-- THE LAST POINT (the reset is not taken, the final store is): the accumulators end at one update of what the
    point before left, and the output's buffer, found at anything, ends at their quotient. -/
theorem sound_kernel2_last (c : Dev nD) (E : Set ℕ) (i : grid2.Coords) (hA : ¬condA i) (hB : condB i)
    (arg1 : Memref sig .tc .vmem S10000x128 .f32) (harg1 : arg1.IsWhole) (arg2 : Memref sig .tc .vmem S10000x1 .i32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S1x512 .f32) (harg5 : arg5.IsWhole)
    (h : Vec F S10000x128 .f32) (b : Vec F S10000x1 .i32) (s : Vec F S512x128 .f32) (n : Vec F S1x512 .f32) (K : PUnit → sProp 𝕄) :
    iprop(owns (c : Thread nD τ) arg1 fullShare h ∗ owns (c : Thread nD τ) arg2 fullShare b ∗ (∃ d, owns (c : Thread nD τ) arg3 fullShare d)
        ∗ owns (c : Thread nD τ) arg4 fullShare s ∗ owns (c : Thread nD τ) arg5 fullShare n
        ∗ (iprop(owns (c : Thread nD τ) arg1 fullShare h ∗ owns (c : Thread nD τ) arg2 fullShare b ∗ owns (c : Thread nD τ) arg3 fullShare (fin2 (stepS h b (View.ld s rS2)) (stepC b (View.ld n rC2)))
            ∗ owns (c : Thread nD τ) arg4 fullShare (stepS h b (View.ld s rS2)) ∗ owns (c : Thread nD τ) arg5 fullShare (stepC b (View.ld n rC2))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold fin2 stepS stepC
    simp only [View.readAt_eq_ld, View.readCov_unit_zero (S := S512x128) _ hzS2, View.readCov_unit_zero (S := S1x512) _ hzC2]
  isplitl [H3]
  · iexists _; isplitr
    swap; · iexact H3
    ipureintro
    try sl_unfold_words
    rw [View.read_writes_eq_canon _ _ _ (fun y => ⟨_, List.mem_cons_self .., View.mem_set_unit_zero hzS2 inb_S512x128_S512x128_0_0 y⟩), View.canon_cons_unit_zero hzS2]
    unfold stepS
    simp only [View.readAt_eq_ld]
  iexists _; isplitr
  swap; · iexact H4
  ipureintro
  try sl_unfold_words
  rw [View.read_writes_eq_canon _ _ _ (fun y => ⟨_, List.mem_cons_self .., View.mem_set_unit_zero hzC2 inb_S1x512_S1x512_0_0 y⟩), View.canon_cons_unit_zero hzC2]
  unfold stepC
  simp only [View.readAt_eq_ld]

/-! ## The body obligation -/

theorem liveAt2_0 : ∀ t : Fin cfg2.N, cfg2.idle 0 (grid2.coords t) = false := fun _ => rfl
theorem liveAt2_1 : ∀ t : Fin cfg2.N, cfg2.idle 1 (grid2.coords t) = false := fun _ => rfl

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' memrefs hold their blocks; the point's position says which case it is in;
    the invariant hands the body the two accumulators at what the point before left (at anything at the first
    point) and takes them back at this point's contents; the output's buffer is handed back as found except at
    the last point, where it ends at the quotient; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 10 := lt_of_lt_of_eq t.isLt (show cfg2.N = 10 from N_2)
  by_cases h0 : t.val = 0
  · have hA : condA (grid2.coords t) := (hcondA t).mpr h0
    have hB : ¬condB (grid2.coords t) := fun h => by have := (hcondB t).mp h; omega
    rw [Dat.leavesExact_idle (dat2 V c) 2 t (idleAt2 t hB) (noFlush2 t hB)]
    rw [acc2_zero V c t h0]; dsimp only
    rw [Phi2_castSucc V c t, Phi2_zero V c _ _ h0, PhiA2_eq]
    iintro ⟨⟨⟨⟨HS, HC⟩, Hrest⟩, Hg⟩, Ho, ⟨%d0, H0⟩, ⟨%d1, H1⟩, ⟨%d2, H2⟩⟩
    iapply (sound_kernel2_first c Set.univ (grid2.coords t) hA hB _ _ _ _ _ _ _ _ _ _ (iblk2 V c 0 t) (iblk2 V c 1 t) ((dat2 V c).before 2 t d2) _)
    isplitl [H0]; · iexact H0
    isplitl [H1]; · iexact H1
    isplitl [H2]; · iexact H2
    isplitl [HS]; · iexact HS
    isplitl [HC]; · iexact HC
    iintro ⟨H0, H1, H2, HS, HC⟩
    isplitl [HS HC Hrest Hg]
    · isplitl [HS]; · iexact HS
      isplitl [HC]; · iexact HC
      isplitl [Hrest]; · iexact Hrest
      iexact Hg
    isplitl [Ho]; · iexact Ho
    isplitl [H0]; · iexact H0
    isplitl [H1]; · iexact H1
    iexists _; iexact H2
  · have hA : ¬condA (grid2.coords t) := fun h => h0 ((hcondA t).mp h)
    by_cases h9 : t.val = 9
    · have hB : condB (grid2.coords t) := (hcondB t).mpr h9
      rw [show (dat2 V c).leavesExact 2 t = owns (c : Thread nD τ) (st2_2 t) fullShare ((dat2 V c).after 2 t) from by
        unfold Dat.leavesExact; rw [liveAt2 t hB], after2_2]
      rw [acc2_pos V c t h0]; dsimp only
      rw [Phi2_castSucc V c t, Phi2_pos V c _ _ h0]
      iintro ⟨⟨HS, HC, Hrest, Hg⟩, Ho, ⟨%d0, H0⟩, ⟨%d1, H1⟩, ⟨%d2, H2⟩⟩
      iapply (sound_kernel2_last c Set.univ (grid2.coords t) hA hB _ _ _ _ _ _ _ _ _ _ (iblk2 V c 0 t) (iblk2 V c 1 t) _ _ _)
      isplitl [H0]; · iexact H0
      isplitl [H1]; · iexact H1
      isplitl [H2]; · iexists _; iexact H2
      isplitl [HS]; · iexact HS
      isplitl [HC]; · iexact HC
      iintro ⟨H0, H1, H2, HS, HC⟩
      isplitl [HS HC Hrest Hg]
      · isplitl [HS]; · iexact HS
        isplitl [HC]; · iexact HC
        isplitl [Hrest]; · iexact Hrest
        iexact Hg
      isplitl [Ho]; · iexact Ho
      isplitl [H0]; · iexact H0
      isplitl [H1]; · iexact H1
      iexact H2
    · have hB : ¬condB (grid2.coords t) := fun h => h9 ((hcondB t).mp h)
      rw [Dat.leavesExact_idle (dat2 V c) 2 t (idleAt2 t hB) (noFlush2 t hB)]
      rw [acc2_pos V c t h0]; dsimp only
      rw [Phi2_castSucc V c t, Phi2_pos V c _ _ h0]
      iintro ⟨⟨HS, HC, Hrest, Hg⟩, Ho, ⟨%d0, H0⟩, ⟨%d1, H1⟩, ⟨%d2, H2⟩⟩
      iapply (sound_kernel2_mid c Set.univ (grid2.coords t) hA hB _ _ _ _ _ _ _ _ _ _ (iblk2 V c 0 t) (iblk2 V c 1 t) ((dat2 V c).before 2 t d2) _ _ _)
      isplitl [H0]; · iexact H0
      isplitl [H1]; · iexact H1
      isplitl [H2]; · iexact H2
      isplitl [HS]; · iexact HS
      isplitl [HC]; · iexact HC
      iintro ⟨H0, H1, H2, HS, HC⟩
      isplitl [HS HC Hrest Hg]
      · isplitl [HS]; · iexact HS
        isplitl [HC]; · iexact HC
        isplitl [Hrest]; · iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the class's back: the accumulators' named contents are forgotten. -/
theorem Phi2_last (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨HS, HC, Hrest, Hg⟩
  isplitr [Hg]
  · isplitr [Hrest]
    · isplitl [HS]
      · iexists _; iexact HS
      iexists _; iexact HC
    iexact Hrest
  iexact Hg

end Cert.KernelIdeal.Hand

end
-- ==== Proof.Run.lean ====
/-
  The kernel program's run, assembled: the contents the three regions leave in their output arrays (each the
  fold of its write-backs over the contents the region was entered with), the proof data of the three pipelines
  at their entry contents, each region as a segment between the host stretches, and the run itself: every weakly
  fair execution terminates, nothing faulting, with every unscoped buffer of every core at the last contents —
  from which the frame (the arguments unchanged) and the result's value are read.
-/
import proofs.«401791_j6786048328256_1_alg».proof.Proof.Body0
import proofs.«401791_j6786048328256_1_alg».proof.Proof.Body1
import proofs.«401791_j6786048328256_1_alg».proof.Proof.Body2
import proofs.«401791_j6786048328256_1_alg».proof.Proof.Gen.KernelIdeal.Regions
import proofs.«401791_j6786048328256_1_alg».proof.Proof.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- The three regions' outputs as one family: the three given at their references, the launch contents elsewhere
    (read nowhere). -/
def mkOuts (o2 : (c : Dev nD) → Buf (Elt F) ((c : Thread nD τ).loc main_v26)) (o4 : (c : Dev nD) → Buf (Elt F) ((c : Thread nD τ).loc main_v41))
    (o6 : (c : Dev nD) → Buf (Elt F) ((c : Thread nD τ).loc main_v43)) : Outs (F := F) :=
  fun _ r c => if h : r = main_v26 then h ▸ o2 c else if h' : r = main_v41 then h' ▸ o4 c else if h'' : r = main_v43 then h'' ▸ o6 c
    else m ((c : Thread nD τ).loc r)

theorem mkOuts_v26 (o2 o4 o6) (J : ℕ) (c : Dev nD) : mkOuts m o2 o4 o6 J main_v26 c = o2 c := by
  unfold mkOuts; rw [dif_pos rfl]
theorem mkOuts_v41 (o2 o4 o6) (J : ℕ) (c : Dev nD) : mkOuts m o2 o4 o6 J main_v41 c = o4 c := by
  unfold mkOuts; rw [dif_neg (by decide), dif_pos rfl]
theorem mkOuts_v43 (o2 o4 o6) (J : ℕ) (c : Dev nD) : mkOuts m o2 o4 o6 J main_v43 c = o6 c := by
  unfold mkOuts; rw [dif_neg (by decide), dif_neg (by decide), dif_pos rfl]

/-- Region 0 is entered with the contents after the first host stretch; -/
abbrev T1 (c : Dev nD) (b : Ref sig .tc) : Buf (Elt F) ((c : Thread nD τ).loc b) := V1 m c b
/-- it leaves in its output array the fold of its ten write-backs. -/
def o2 (c : Dev nD) : Buf (Elt F) ((c : Thread nD τ).loc main_v26) := (dat0 (T1 m) c).arrAt 5 cfg0.N
def outsA : Outs (F := F) := mkOuts m (o2 m) (fun c => m ((c : Thread nD τ).loc main_v41)) (fun c => m ((c : Thread nD τ).loc main_v43))
/-- Region 1 is entered with the contents after the second host stretch, which read region 0's output; -/
abbrev T3 (c : Dev nD) (b : Ref sig .tc) : Buf (Elt F) ((c : Thread nD τ).loc b) := V3 m (outsA m) c b
def o4 (c : Dev nD) : Buf (Elt F) ((c : Thread nD τ).loc main_v41) := (dat1 (T3 m) c).arrAt 5 cfg1.N
def outsB : Outs (F := F) := mkOuts m (o2 m) (o4 m) (fun c => m ((c : Thread nD τ).loc main_v43))
/-- Region 2 is entered with the contents after the third host stretch; it writes its output once, at the last point. -/
abbrev T5 (c : Dev nD) (b : Ref sig .tc) : Buf (Elt F) ((c : Thread nD τ).loc b) := V5 m (outsB m) c b
def o6 (c : Dev nD) : Buf (Elt F) ((c : Thread nD τ).loc main_v43) := (dat2 (T5 m) c).arrAt 2 cfg2.N
/-- What the three regions leave. -/
def outs : Outs (F := F) := mkOuts m (o2 m) (o4 m) (o6 m)

theorem outs_v26 (J : ℕ) (c : Dev nD) : outs m J main_v26 c = o2 m c := mkOuts_v26 m _ _ _ J c
theorem outs_v41 (J : ℕ) (c : Dev nD) : outs m J main_v41 c = o4 m c := mkOuts_v41 m _ _ _ J c
theorem outs_v43 (J : ℕ) (c : Dev nD) : outs m J main_v43 c = o6 m c := mkOuts_v43 m _ _ _ J c

/-- The contents between the items depend on the family only through the outputs already written. -/
theorem V2_outs (c : Dev nD) : V2 m (outs m) c = V2 m (outsA m) c := by
  show Function.update (V1 m c) _ (outs m 2 main_v26 c) = Function.update (V1 m c) _ (outsA m 2 main_v26 c)
  rw [outs_v26]; unfold outsA; rw [mkOuts_v26]
theorem V3_outs (c : Dev nD) : V3 m (outs m) c = V3 m (outsA m) c := by
  show StableHlo.after hostOps1 (V2 m (outs m) c) = StableHlo.after hostOps1 (V2 m (outsA m) c)
  rw [V2_outs]
theorem V2_outsB (c : Dev nD) : V2 m (outsB m) c = V2 m (outsA m) c := by
  show Function.update (V1 m c) _ (outsB m 2 main_v26 c) = Function.update (V1 m c) _ (outsA m 2 main_v26 c)
  unfold outsB outsA; rw [mkOuts_v26, mkOuts_v26]
theorem V3_outsB (c : Dev nD) : V3 m (outsB m) c = V3 m (outsA m) c := by
  show StableHlo.after hostOps1 (V2 m (outsB m) c) = StableHlo.after hostOps1 (V2 m (outsA m) c)
  rw [V2_outsB]
theorem V4_outs (c : Dev nD) : V4 m (outs m) c = V4 m (outsB m) c := by
  show Function.update (V3 m (outs m) c) _ (outs m 4 main_v41 c) = Function.update (V3 m (outsB m) c) _ (outsB m 4 main_v41 c)
  rw [V3_outs, V3_outsB, outs_v41]; unfold outsB; rw [mkOuts_v41]
theorem V5_outs (c : Dev nD) : V5 m (outs m) c = V5 m (outsB m) c := by
  show StableHlo.after hostOps2 (V4 m (outs m) c) = StableHlo.after hostOps2 (V4 m (outsB m) c)
  rw [V4_outs]

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-! ## Each region's arrays at its exit -/

abbrev T2 (c : Dev nD) (b : Ref sig .tc) : Buf (Elt F) ((c : Thread nD τ).loc b) := V2 m (outs m) c b
abbrev T4 (c : Dev nD) (b : Ref sig .tc) : Buf (Elt F) ((c : Thread nD τ).loc b) := V4 m (outs m) c b
abbrev T6 (c : Dev nD) (b : Ref sig .tc) : Buf (Elt F) ((c : Thread nD τ).loc b) := V6 m (outs m) c b

theorem hrest0 (c : Dev nD) : ∀ b, b ∉ Finset.univ.image (Pipeline.arrRef spec0) → T2 m c b = T1 m c b := fun b hb =>
  V2_of m (outs m) c b (by
    intro h; rw [List.mem_singleton] at h; subst h
    exact hb (Finset.mem_image.mpr ⟨5, Finset.mem_univ _, rfl⟩))
theorem hrest1 (c : Dev nD) : ∀ b, b ∉ Finset.univ.image (Pipeline.arrRef spec1) → T4 m c b = T3 m c b := fun b hb => by
  show V4 m (outs m) c b = V3 m (outsA m) c b
  rw [← V3_outs]
  exact V4_of m (outs m) c b (by
    intro h; rw [List.mem_singleton] at h; subst h
    exact hb (Finset.mem_image.mpr ⟨5, Finset.mem_univ _, rfl⟩))
theorem hrest2 (c : Dev nD) : ∀ b, b ∉ Finset.univ.image (Pipeline.arrRef spec2) → T6 m c b = T5 m c b := fun b hb => by
  show V6 m (outs m) c b = V5 m (outsB m) c b
  rw [← V5_outs]
  exact V6_of m (outs m) c b (by
    intro h; rw [List.mem_singleton] at h; subst h
    exact hb (Finset.mem_image.mpr ⟨2, Finset.mem_univ _, rfl⟩))

/-- An input window's array is never written: it holds at the exit what it held at the entry. -/
theorem hF0 (c : Dev nD) (w : Fin cfg0.W) : (pdats m 0 c).arrAt w cfg0.N = T2 m c (Pipeline.arrRef spec0 w) := by
  match w with
  | ⟨0, _⟩ => exact (((dat0 (T1 m) c).arrAt_in 0 rfl _).trans (A_eq0 (T1 m) c 0)).trans (V2_of m (outs m) c _ (by decide)).symm
  | ⟨1, _⟩ => exact (((dat0 (T1 m) c).arrAt_in 1 rfl _).trans (A_eq0 (T1 m) c 1)).trans (V2_of m (outs m) c _ (by decide)).symm
  | ⟨2, _⟩ => exact (((dat0 (T1 m) c).arrAt_in 2 rfl _).trans (A_eq0 (T1 m) c 2)).trans (V2_of m (outs m) c _ (by decide)).symm
  | ⟨3, _⟩ => exact (((dat0 (T1 m) c).arrAt_in 3 rfl _).trans (A_eq0 (T1 m) c 3)).trans (V2_of m (outs m) c _ (by decide)).symm
  | ⟨4, _⟩ => exact (((dat0 (T1 m) c).arrAt_in 4 rfl _).trans (A_eq0 (T1 m) c 4)).trans (V2_of m (outs m) c _ (by decide)).symm
  | ⟨5, _⟩ =>
    show (dat0 (T1 m) c).arrAt 5 cfg0.N = Function.update (V1 m c) _ (outs m 2 main_v26 c) _
    rw [Function.update_self, outs_v26]; rfl
theorem hF1 (c : Dev nD) (w : Fin cfg1.W) : (pdats m 1 c).arrAt w cfg1.N = T4 m c (Pipeline.arrRef spec1 w) := by
  have hV : ∀ b : Ref sig .tc, b ∉ ([main_v41] : List (Ref sig .tc)) → V4 m (outs m) c b = V3 m (outsA m) c b := fun b hb => by
    rw [← V3_outs]; exact V4_of m (outs m) c b hb
  match w with
  | ⟨0, _⟩ => exact (((dat1 (T3 m) c).arrAt_in 0 rfl _).trans (A_eq1 (T3 m) c 0)).trans (hV _ (by decide)).symm
  | ⟨1, _⟩ => exact (((dat1 (T3 m) c).arrAt_in 1 rfl _).trans (A_eq1 (T3 m) c 1)).trans (hV _ (by decide)).symm
  | ⟨2, _⟩ => exact (((dat1 (T3 m) c).arrAt_in 2 rfl _).trans (A_eq1 (T3 m) c 2)).trans (hV _ (by decide)).symm
  | ⟨3, _⟩ => exact (((dat1 (T3 m) c).arrAt_in 3 rfl _).trans (A_eq1 (T3 m) c 3)).trans (hV _ (by decide)).symm
  | ⟨4, _⟩ => exact (((dat1 (T3 m) c).arrAt_in 4 rfl _).trans (A_eq1 (T3 m) c 4)).trans (hV _ (by decide)).symm
  | ⟨5, _⟩ =>
    show (dat1 (T3 m) c).arrAt 5 cfg1.N = Function.update (V3 m (outs m) c) _ (outs m 4 main_v41 c) _
    rw [Function.update_self, outs_v41]; rfl
theorem hF2 (c : Dev nD) (w : Fin cfg2.W) : (pdats m 2 c).arrAt w cfg2.N = T6 m c (Pipeline.arrRef spec2 w) := by
  have hV : ∀ b : Ref sig .tc, b ∉ ([main_v43] : List (Ref sig .tc)) → V6 m (outs m) c b = V5 m (outsB m) c b := fun b hb => by
    rw [← V5_outs]; exact V6_of m (outs m) c b hb
  match w with
  | ⟨0, _⟩ => exact (((dat2 (T5 m) c).arrAt_in 0 rfl _).trans (A_eq2 (T5 m) c 0)).trans (hV _ (by decide)).symm
  | ⟨1, _⟩ => exact (((dat2 (T5 m) c).arrAt_in 1 rfl _).trans (A_eq2 (T5 m) c 1)).trans (hV _ (by decide)).symm
  | ⟨2, _⟩ =>
    show (dat2 (T5 m) c).arrAt 2 cfg2.N = Function.update (V5 m (outs m) c) _ (outs m 6 main_v43 c) _
    rw [Function.update_self, outs_v43]; rfl

/-! ## The regions as segments -/

-- unification of a library lemma stated over the pinned configuration with the printed one unfolds plain definitions in a
-- metavariable's type
set_option backward.isDefEq.respectTransparency.types false in
/-- REGION 0 over the thread state: entered from every unscoped buffer at the contents before it, left at the
    contents after it. Its arrays are split out of the unscoped buffers and put back at what the write-backs leave;
    the generator register goes into the region's invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a
-- metavariable's type
set_option backward.isDefEq.respectTransparency.types false in
/-- REGION 1 over the thread state: entered from every unscoped buffer at the contents before it, left at the
    contents after it. Its arrays are split out of the unscoped buffers and put back at what the write-backs leave;
    the generator register goes into the region's invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a
-- metavariable's type
set_option backward.isDefEq.respectTransparency.types false in
/-- REGION 2 over the thread state: entered from every unscoped buffer at the contents before it, left at the
    contents after it. Its arrays are split out of the unscoped buffers and put back at what the write-backs leave;
    the generator register goes into the region's invariant and comes out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last (T5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the conditional run's implicit arguments are found by unifying its conclusion with this one, which takes unfolding plain
-- definitions in a metavariable's type
set_option backward.isDefEq.respectTransparency.types false in
/-- THE RUN. From any memory with zero counters, every weakly fair execution of the program terminates, nothing
    faulting, and every final state holds every unscoped buffer of every core at the last contents: the launch
    memory, folded through the three host stretches and the three regions' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V6 m (outs m) c b) :=
  Cert.KernelIdeal.GenP.run_cond m (emb₁) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => .rfl)
    (R1 := reg1 m) (hpre1 := fun c => by rw [V3_outs]; exact .rfl) (hpost1 := fun c => .rfl)
    (R2 := reg2 m) (hpre2 := fun c => by rw [V5_outs]; exact .rfl) (hpost2 := fun c => .rfl)

/-- An unscoped reference of the TensorCore is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched (no host stretch writes one, no region may change one). -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c)⟩) (run_all m ρ)

/-- THE RESULT: the result array ends at what region 2 leaves in it, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v43) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v43 (by decide))).trans ((show V6 m (outs m) c main_v43 = outs m 6 main_v43 c from Function.update_self ..).trans (outs_v43 m 6 c)),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c)⟩) (run_all m ρ)

end Cert.KernelIdeal.Hand

end
-- ==== Proof.Spec.lean ====
/-
  The two programs' mathematics as named whole-array functions, stage by stage, over the reference program's own
  operation records: the edge lists read off the 2 x E index array, the wrapped source ids, the scatter-add of
  gathered rows by destination (a neighbourhood sum), the clamped in-degree, the mean aggregation as the
  reference writes it (a quotient by the degree) and as the kernel program writes it (a product with the
  reciprocal of the degree), one SAGE layer max(agg·W_l + x·W_r + b, 0), and the global mean pool (segment sums
  by graph id over max(segment counts, 1)). The reference's result is their composition.
-/
import proofs.«401791_j6786048328256_1_alg».proof.Defs
import proofs.«401791_j6786048328256_1_alg».proof.Proof.Gen.ReferenceIdeal
import Idealize.ShloMosaic.PureOps.Ideal

noncomputable section

namespace Cert.Spec

open Idealize.ShloMosaic Idealize.SL.Sem Cert.ReferenceIdeal
open Cert.ReferenceIdeal.Facts₀ Cert.ReferenceIdeal.Facts

variable {F : FTy → Type} [FloatOps F]

abbrev CT (S : Shape) (e : EltTy) : Type := (⟨S, e⟩ : BufTy).Contents (Elt F)

/-- Row 1 of the index array: the destination node of every edge. -/
def dstW (ei : CT (F := F) S2x1600000 .i32) : CT (F := F) S1600000 .i32 :=
  shapeCast _ (extractStridedSlice S1x1600000 ![1, 0] ei slices_S2x1600000_S1x1600000_1_0) shapeCasts_S1x1600000_S1600000
/-- Row 0 of the index array: the source node of every edge. -/
def srcW (ei : CT (F := F) S2x1600000 .i32) : CT (F := F) S1600000 .i32 :=
  shapeCast _ (extractStridedSlice S1x1600000 ![0, 0] ei slices_S2x1600000_S1x1600000_0_0) shapeCasts_S1x1600000_S1600000
/-- The source ids with negative ids wrapped by the node count (numpy indexing). -/
def srcN (ei : CT (F := F) S2x1600000 .i32) : CT (F := F) S1600000 .i32 :=
  select (cmpi .slt (srcW ei) (broadcastInDim S1600000 ![] bcast_S_S1600000 (constantI S_ 32 0#32)))
    (addi (srcW ei) (broadcastInDim S1600000 ![] bcast_S_S1600000 (constantI S_ 32 100000#32))) (srcW ei)
def dstCol (ei : CT (F := F) S2x1600000 .i32) : CT (F := F) S1600000x1 .i32 :=
  broadcastInDim S1600000x1 ![0] bcast_S1600000_S1600000x1_0 (dstW ei)
def srcCol (ei : CT (F := F) S2x1600000 .i32) : CT (F := F) S1600000x1 .i32 :=
  broadcastInDim S1600000x1 ![0] bcast_S1600000_S1600000x1_0 (srcN ei)

/-- The in-degree of every node (a scatter-add of ones by destination), clamped below by one. -/
def degM (ei : CT (F := F) S2x1600000 .i32) : CT (F := F) S100000 .f32 :=
  maximumf (Host.scatterAdd scatter_S100000_S1600000x1_S1600000_n_0_0_1 (broadcastInDim S100000 ![] bcast_S_S100000 (constant S_ .f32 0x00000000#32))
      (dstCol ei) (broadcastInDim S1600000 ![] bcast_S_S1600000 (constant S_ .f32 0x3F800000#32)))
    (broadcastInDim S100000 ![] bcast_S_S100000 (constant S_ .f32 0x3F800000#32))

/-- The neighbourhood sums of 32-wide rows: gather by source, scatter-add by destination. -/
def sg32 (x : CT (F := F) S100000x32 .f32) (ei : CT (F := F) S2x1600000 .i32) : CT (F := F) S100000x32 .f32 :=
  Host.scatterAdd scatter_S100000x32_S1600000x1_S1600000x32_1_0_0_1 (broadcastInDim S100000x32 ![] bcast_S_S100000x32 (constant S_ .f32 0x00000000#32))
    (dstCol ei) (Host.gather gather_S100000x32_S1600000x1_S1600000x32_1_0_n_n_0_1_132 x (srcCol ei))
/-- The neighbourhood sums of 64-wide rows. -/
def sg64 (h : CT (F := F) S100000x64 .f32) (ei : CT (F := F) S2x1600000 .i32) : CT (F := F) S100000x64 .f32 :=
  Host.scatterAdd scatter_S100000x64_S1600000x1_S1600000x64_1_0_0_1 (broadcastInDim S100000x64 ![] bcast_S_S100000x64 (constant S_ .f32 0x00000000#32))
    (dstCol ei) (Host.gather gather_S100000x64_S1600000x1_S1600000x64_1_0_n_n_0_1_164 h (srcCol ei))

/-- Mean aggregation as the reference writes it: the neighbourhood sum over the clamped degree. -/
def aggR32 (x : CT (F := F) S100000x32 .f32) (ei : CT (F := F) S2x1600000 .i32) : CT (F := F) S100000x32 .f32 :=
  Host.divf (sg32 x ei) (broadcastInDim S100000x32 ![0, 1] bcast_S100000x1_S100000x32_0_1 (broadcastInDim S100000x1 ![0] bcast_S100000_S100000x1_0 (degM ei)))
def aggR64 (h : CT (F := F) S100000x64 .f32) (ei : CT (F := F) S2x1600000 .i32) : CT (F := F) S100000x64 .f32 :=
  Host.divf (sg64 h ei) (broadcastInDim S100000x64 ![0, 1] bcast_S100000x1_S100000x64_0_1 (broadcastInDim S100000x1 ![0] bcast_S100000_S100000x1_0 (degM ei)))

/-- The reciprocal of the clamped degree, as the kernel program computes it once. -/
def invDeg (ei : CT (F := F) S2x1600000 .i32) : CT (F := F) S100000 .f32 :=
  Host.divf (broadcastInDim S100000 ![] bcast_S_S100000 (constant S_ .f32 0x3F800000#32)) (degM ei)
/-- Mean aggregation as the kernel program writes it: the neighbourhood sum times the reciprocal degree. -/
def aggK32 (x : CT (F := F) S100000x32 .f32) (ei : CT (F := F) S2x1600000 .i32) : CT (F := F) S100000x32 .f32 :=
  mulf (sg32 x ei) (broadcastInDim S100000x32 ![0, 1] bcast_S100000x1_S100000x32_0_1 (broadcastInDim S100000x1 ![0] bcast_S100000_S100000x1_0 (invDeg ei)))
def aggK64 (h : CT (F := F) S100000x64 .f32) (ei : CT (F := F) S2x1600000 .i32) : CT (F := F) S100000x64 .f32 :=
  mulf (sg64 h ei) (broadcastInDim S100000x64 ![0, 1] bcast_S100000x1_S100000x64_0_1 (broadcastInDim S100000x1 ![0] bcast_S100000_S100000x1_0 (invDeg ei)))

/-- The first SAGE layer on whole arrays: max(a·W_l + x·W_r + b, 0). -/
def linR0 (a x : CT (F := F) S100000x32 .f32) (wl wr : CT (F := F) S32x64 .f32) (b : CT (F := F) S64 .f32) : CT (F := F) S100000x64 .f32 :=
  maximumf (addf (addf (Host.dotGeneral dot_S100000x32_S32x64_S100000x64_1_0_0_1_n_n none a wl) (Host.dotGeneral dot_S100000x32_S32x64_S100000x64_1_0_0_1_n_n none x wr))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))
/-- The second SAGE layer on whole arrays. -/
def linR1 (a x : CT (F := F) S100000x64 .f32) (wl wr : CT (F := F) S64x128 .f32) (b : CT (F := F) S128 .f32) : CT (F := F) S100000x128 .f32 :=
  maximumf (addf (addf (Host.dotGeneral dot_S100000x64_S64x128_S100000x128_1_0_0_1_n_n none a wl) (Host.dotGeneral dot_S100000x64_S64x128_S100000x128_1_0_0_1_n_n none x wr))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The global mean pool on whole arrays: segment sums of the rows by graph id over max(segment counts, 1). -/
def poolR (h : CT (F := F) S100000x128 .f32) (bt : CT (F := F) S100000 .i32) : CT (F := F) S512x128 .f32 :=
  Host.divf (Host.scatterAdd scatter_S512x128_S100000x1_S100000x128_1_0_0_1 (broadcastInDim S512x128 ![] bcast_S_S512x128 (constant S_ .f32 0x00000000#32))
      (broadcastInDim S100000x1 ![0] bcast_S100000_S100000x1_0 bt) h)
    (broadcastInDim S512x128 ![0, 1] bcast_S512x1_S512x128_0_1 (broadcastInDim S512x1 ![0] bcast_S512_S512x1_0
      (maximumf (Host.scatterAdd scatter_S512_S100000x1_S100000_n_0_0_1 (broadcastInDim S512 ![] bcast_S_S512 (constant S_ .f32 0x00000000#32))
          (broadcastInDim S100000x1 ![0] bcast_S100000_S100000x1_0 bt) (broadcastInDim S100000 ![] bcast_S_S100000 (constant S_ .f32 0x3F800000#32)))
        (broadcastInDim S512 ![] bcast_S_S512 (constant S_ .f32 0x3F800000#32)))))

/-- The whole network with a given mean aggregation: two SAGE layers, then the pool. -/
def net (agg32 : CT (F := F) S100000x32 .f32 → CT (F := F) S2x1600000 .i32 → CT (F := F) S100000x32 .f32)
    (agg64 : CT (F := F) S100000x64 .f32 → CT (F := F) S2x1600000 .i32 → CT (F := F) S100000x64 .f32)
    (x : CT (F := F) S100000x32 .f32) (ei : CT (F := F) S2x1600000 .i32) (bt : CT (F := F) S100000 .i32)
    (w1l w1r : CT (F := F) S32x64 .f32) (b1 : CT (F := F) S64 .f32) (w2l w2r : CT (F := F) S64x128 .f32) (b2 : CT (F := F) S128 .f32) : CT (F := F) S512x128 .f32 :=
  poolR (linR1 (agg64 (linR0 (agg32 x ei) x w1l w1r b1) ei) (linR0 (agg32 x ei) x w1l w1r b1) w2l w2r b2) bt

end Cert.Spec

end
-- ==== Proof.Val0.lean ====
/-
  What region 0 leaves in its output array, at the ideal instance: the ten row tiles written back, read as one
  whole-array function, are the first SAGE layer of the reference on whole arrays.
-/
import proofs.«401791_j6786048328256_1_alg».proof.Proof.Body0
import proofs.«401791_j6786048328256_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

/-! ## A product of a tile of rows with a weight matrix, at one entry

Entry (r, j) of a 10000 x 32 tile times a 32 x 64 matrix, accumulated into zeros, is the sum over the 32 shared
positions k of the tile's (r, k) times the matrix's (k, j). The four lemmas before it say which operand entry a
result entry and a contraction position name, axis by axis. -/

theorem tileL0_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem tileL0_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem tileR0_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem tileR0_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem tileDot_apply0 (a : FVec Ideal S10000x32 .f32) (w : FVec Ideal S32x64 .f32) (r : Fin 10000) (j : Fin 64) :
    matmul dot_S10000x32_S32x64_S10000x64_1_0_0_1_n_n (some .fp32) a w (constant (F := Ideal) S10000x64 .f32 0x00000000#32) (ix2 r j)
      = ∑ k : Fin 32, a (ix2 r k) * w (ix2 k j) := by
  simp only [matmul]
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 r j) ((ValueIdx.contrEquiv1 dot_S10000x32_S32x64_S10000x64_1_0_0_1_n_n 32 rfl rfl).symm k) = ix2 r k := funext fun a => Fin.ext (by
    match a with
    | ⟨0, _⟩ => exact tileL0_0 _ _
    | ⟨1, _⟩ => exact (tileL0_1 _ _).trans hk)
  have er : dot_S10000x32_S32x64_S10000x64_1_0_0_1_n_n.rhsIdx (ix2 r j) ((ValueIdx.contrEquiv1 dot_S10000x32_S32x64_S10000x64_1_0_0_1_n_n 32 rfl rfl).symm k) = ix2 k j := funext fun a => Fin.ext (by
    match a with
    | ⟨0, _⟩ => exact (tileR0_0 _ _).trans hk
    | ⟨1, _⟩ => exact tileR0_1 _ _)
  rw [el, er]

/-! ## The same product on whole arrays

Entry (i, j) of the 100000 x 32 array times a 32 x 64 matrix, as the reference's contraction writes it, is the same
sum over the 32 shared positions. -/

theorem wholeL0_0 (i : S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 0).val = (i 0).val := by
  unfold DotDims.lhsIdx
  rw [dif_neg (show ¬(0 : Fin S100000x32.rank) ∈ Cert.ReferenceIdeal.dot_S100000x32_S32x64_S100000x64_1_0_0_1_n_n.lhsBatch by decide), dif_pos (show (0 : Fin S100000x32.rank) ∈ Cert.ReferenceIdeal.dot_S100000x32_S32x64_S100000x64_1_0_0_1_n_n.lhsNonContracting by decide)]
  rfl
theorem wholeL0_1 (i : S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 1).val = (q ⟨0, by decide⟩).val :=
  Cert.ReferenceIdeal.dot_S100000x32_S32x64_S100000x64_1_0_0_1_n_n.lhsIdx_val_of_single rfl i q
theorem wholeR0_0 (i : S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 0).val = (q ⟨0, by decide⟩).val :=
  Cert.ReferenceIdeal.dot_S100000x32_S32x64_S100000x64_1_0_0_1_n_n.rhsIdx_val_of_single rfl i q
theorem wholeR0_1 (i : S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 1).val = (i 1).val := by
  unfold DotDims.rhsIdx
  rw [dif_neg (show ¬(1 : Fin S32x64.rank) ∈ Cert.ReferenceIdeal.dot_S100000x32_S32x64_S100000x64_1_0_0_1_n_n.rhsBatch by decide), dif_pos (show (1 : Fin S32x64.rank) ∈ Cert.ReferenceIdeal.dot_S100000x32_S32x64_S100000x64_1_0_0_1_n_n.rhsNonContracting by decide)]
  rfl

theorem wholeDot_apply0 (a : FVec Ideal S100000x32 .f32) (w : FVec Ideal S32x64 .f32) (i : Fin 100000) (j : Fin 64) :
    Host.dotGeneral (F := Ideal) Cert.ReferenceIdeal.dot_S100000x32_S32x64_S100000x64_1_0_0_1_n_n none a w (ix2 i j)
      = ∑ k : Fin 32, a (ix2 i k) * w (ix2 k j) := by
  simp only [Host.dotGeneral]
  rw [Ideal.dotGeneral_apply, ← Equiv.sum_comp (ValueIdx.contrEquiv1 Cert.ReferenceIdeal.dot_S100000x32_S32x64_S100000x64_1_0_0_1_n_n 32 rfl rfl).symm]
  refine Finset.sum_congr rfl fun k _ => ?_
  have hk := ValueIdx.contrEquiv1_symm_val Cert.ReferenceIdeal.dot_S100000x32_S32x64_S100000x64_1_0_0_1_n_n 32 rfl rfl k
  have el : Cert.ReferenceIdeal.dot_S100000x32_S32x64_S100000x64_1_0_0_1_n_n.lhsIdx (ix2 i j) ((ValueIdx.contrEquiv1 Cert.ReferenceIdeal.dot_S100000x32_S32x64_S100000x64_1_0_0_1_n_n 32 rfl rfl).symm k) = ix2 i k := funext fun a => Fin.ext (by
    match a with
    | ⟨0, _⟩ => exact wholeL0_0 _ _
    | ⟨1, _⟩ => exact (wholeL0_1 _ _).trans hk)
  have er : Cert.ReferenceIdeal.dot_S100000x32_S32x64_S100000x64_1_0_0_1_n_n.rhsIdx (ix2 i j) ((ValueIdx.contrEquiv1 Cert.ReferenceIdeal.dot_S100000x32_S32x64_S100000x64_1_0_0_1_n_n 32 rfl rfl).symm k) = ix2 k j := funext fun a => Fin.ext (by
    match a with
    | ⟨0, _⟩ => exact (wholeR0_0 _ _).trans hk
    | ⟨1, _⟩ => exact wholeR0_1 _ _)
  rw [el, er]

/-! ## One tile's result at an entry

The bias row, held as a 1 x 64 block, spread over the 10000 rows of a tile reads its entry (0, j) in every row; so
entry (r, j) of what the body stores is max(sum_k a[r,k] wl[k,j] + sum_k x[r,k] wr[k,j] + b[0,j], 0). -/

theorem biasTile_apply0 (b : Vec Ideal S1x64 .f32) (r : Fin 10000) (j : Fin 64) :
    broadcastTo S10000x64 b broadcasts_S1x64_S10000x64 (ix2 r j) = b (ix2 0 j) := by
  exact broadcastTo_apply b broadcasts_S1x64_S10000x64 (ix2 r j) (ix2 0 j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

theorem payload_at0 (a x : Vec Ideal S10000x32 .f32) (wl wr : Vec Ideal S32x64 .f32) (b : Vec Ideal S1x64 .f32) (r : Fin 10000) (j : Fin 64) :
    k0_pay1 a wl x wr b (ix2 r j)
      = max ((∑ k : Fin 32, a (ix2 r k) * wl (ix2 k j)) + (∑ k : Fin 32, x (ix2 r k) * wr (ix2 k j)) + b (ix2 0 j)) 0 := by
  unfold k0_pay1
  simp only [shapeCast_self]
  rw [maximumf_apply, addf_apply, addf_apply, tileDot_apply0, tileDot_apply0, biasTile_apply0, broadcast_apply]
  exact congrArg (max _) Ideal.ofBits_zero_f32

/-! ## The reference's layer at an entry

The bias vector made a 1 x 64 row and then spread over the 100000 rows reads its entry j in every row, and the
spread scalar zero reads zero; so entry (i, j) of the layer on whole arrays is the same expression of row i. -/

theorem biasAll_apply0 (b6 : Cert.Spec.CT (F := Ideal) S64 .f32) (i : Fin 100000) (j : Fin 64) :
    broadcastInDim S100000x64 ![0, 1] Cert.ReferenceIdeal.Facts₀.bcast_S1x64_S100000x64_0_1 (broadcastInDim S1x64 ![1] Cert.ReferenceIdeal.Facts₀.bcast_S64_S1x64_1 b6) (ix2 i j) = b6 (ix1 j) := by
  refine (broadcastInDim_apply _ _ _ (ix2 i j) (ix2 0 j) (fun a => match a with
    | ⟨0, _⟩ => by show (0 : Nat) = if (1 : Nat) = 1 then 0 else i.val; rw [if_pos rfl]
    | ⟨1, _⟩ => by show j.val = if (64 : Nat) = 1 then 0 else j.val; rw [if_neg (by decide)])).trans ?_
  exact broadcastInDim_apply _ _ b6 (ix2 0 j) (ix1 j) (fun a => match a with
    | ⟨0, _⟩ => by show j.val = if (64 : Nat) = 1 then 0 else j.val; rw [if_neg (by decide)])

theorem zeroAll_apply0 (i : Fin 100000) (j : Fin 64) :
    broadcastInDim S100000x64 ![] Cert.ReferenceIdeal.Facts₀.bcast_S_S100000x64 (constant (F := Ideal) S_ .f32 0x00000000#32) (ix2 i j) = 0 := by
  refine (broadcastInDim_apply _ _ _ (ix2 i j) ix0 (fun a => a.elim0)).trans ?_
  exact Ideal.ofBits_zero_f32

theorem layer_at0 (a x : Cert.Spec.CT (F := Ideal) S100000x32 .f32) (wl wr : Cert.Spec.CT (F := Ideal) S32x64 .f32)
    (b6 : Cert.Spec.CT (F := Ideal) S64 .f32) (i : Fin 100000) (j : Fin 64) :
    Cert.Spec.linR0 (F := Ideal) a x wl wr b6 (ix2 i j)
      = max ((∑ k : Fin 32, a (ix2 i k) * wl (ix2 k j)) + (∑ k : Fin 32, x (ix2 i k) * wr (ix2 k j)) + b6 (ix1 j)) 0 := by
  unfold Cert.Spec.linR0
  rw [maximumf_apply, addf_apply, addf_apply, wholeDot_apply0, wholeDot_apply0, biasAll_apply0, zeroAll_apply0]

/-! ## Where a block's entry sits in its array

The two row-tiled inputs and the output are cut into ten blocks of 10000 rows, block t at rows 10000 t onwards;
the two weight matrices and the bias row are one block each. So entry (r, k) of block t of a row-tiled array is
entry (10000 t + r, k) of the array, and an entry of a one-block array is the array's own. -/

theorem hz0 : (![0, 0] : Fin 2 → Nat) = fun _ => 0 := funext fun a => by fin_cases a <;> rfl

/-- The block index of every window at every point of the grid. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of block t is a row of the array. -/
theorem row_lt0 (t : Fin cfg0.N) (r : Fin 10000) : 10000 * t.val + r.val < 100000 := by
  have ht : t.val < grid0.N := t.isLt
  rw [N_0] at ht
  have hr := r.isLt
  omega

theorem emb0_0 (t : Fin cfg0.N) (r : Fin 10000) (k : Fin 32) :
    ((cfg0.win 0).blk t).view.emb (ix2 r k) = ix2 ⟨10000 * t.val + r.val, row_lt0 t r⟩ k := by
  obtain ⟨e0, e1, -⟩ := idx_facts0 t
  funext a; apply Fin.ext
  match a with
  | ⟨0, _⟩ => show win0_0.index t (0 : Fin 2) * 10000 + 1 * r.val = 10000 * t.val + r.val; omega
  | ⟨1, _⟩ => show win0_0.index t (1 : Fin 2) * 32 + 1 * k.val = k.val; omega

theorem emb0_1 (t : Fin cfg0.N) (r : Fin 10000) (k : Fin 32) :
    ((cfg0.win 1).blk t).view.emb (ix2 r k) = ix2 ⟨10000 * t.val + r.val, row_lt0 t r⟩ k := by
  obtain ⟨-, -, e0, e1, -⟩ := idx_facts0 t
  funext a; apply Fin.ext
  match a with
  | ⟨0, _⟩ => show win0_1.index t (0 : Fin 2) * 10000 + 1 * r.val = 10000 * t.val + r.val; omega
  | ⟨1, _⟩ => show win0_1.index t (1 : Fin 2) * 32 + 1 * k.val = k.val; omega

theorem emb0_2 (t : Fin cfg0.N) (k : Fin 32) (j : Fin 64) :
    ((cfg0.win 2).blk t).view.emb (ix2 k j) = ix2 k j := by
  obtain ⟨-, -, -, -, e0, e1, -⟩ := idx_facts0 t
  funext a; apply Fin.ext
  match a with
  | ⟨0, _⟩ => show win0_2.index t (0 : Fin 2) * 32 + 1 * k.val = k.val; omega
  | ⟨1, _⟩ => show win0_2.index t (1 : Fin 2) * 64 + 1 * j.val = j.val; omega

theorem emb0_3 (t : Fin cfg0.N) (k : Fin 32) (j : Fin 64) :
    ((cfg0.win 3).blk t).view.emb (ix2 k j) = ix2 k j := by
  obtain ⟨-, -, -, -, -, -, e0, e1, -⟩ := idx_facts0 t
  funext a; apply Fin.ext
  match a with
  | ⟨0, _⟩ => show win0_3.index t (0 : Fin 2) * 32 + 1 * k.val = k.val; omega
  | ⟨1, _⟩ => show win0_3.index t (1 : Fin 2) * 64 + 1 * j.val = j.val; omega

theorem emb0_4 (t : Fin cfg0.N) (u : Fin 1) (j : Fin 64) :
    ((cfg0.win 4).blk t).view.emb (ix2 u j) = ix2 u j := by
  obtain ⟨-, -, -, -, -, -, -, -, e0, e1, -⟩ := idx_facts0 t
  funext a; apply Fin.ext
  match a with
  | ⟨0, _⟩ => show win0_4.index t (0 : Fin 2) * 1 + 1 * u.val = u.val; omega
  | ⟨1, _⟩ => show win0_4.index t (1 : Fin 2) * 64 + 1 * j.val = j.val; omega

theorem emb0_5 (t : Fin cfg0.N) (r : Fin 10000) (j : Fin 64) :
    ((cfg0.win 5).blk t).view.emb (ix2 r j) = ix2 ⟨10000 * t.val + r.val, row_lt0 t r⟩ j := by
  obtain ⟨-, -, -, -, -, -, -, -, -, -, e0, e1⟩ := idx_facts0 t
  funext a; apply Fin.ext
  match a with
  | ⟨0, _⟩ => show win0_5.index t (0 : Fin 2) * 10000 + 1 * r.val = 10000 * t.val + r.val; omega
  | ⟨1, _⟩ => show win0_5.index t (1 : Fin 2) * 64 + 1 * j.val = j.val; omega

section Blocks

variable (V : (c : Dev nD) → (b : Ref sig .tc) → Buf (Elt Ideal) ((c : Thread nD τ).loc b)) (c : Dev nD)

/-! Each input block at a point, read at an entry, is its array read where the block sits. -/

theorem iblk0_0_apply (t : Fin cfg0.N) (r : Fin 10000) (k : Fin 32) :
    iblk0 (F := Ideal) V c 0 t (ix2 r k) = V c main_v24 (ix2 ⟨10000 * t.val + r.val, row_lt0 t r⟩ k) := by
  show V c main_v24 (((cfg0.win 0).blk t).view.emb (ix2 r k)) = _
  rw [emb0_0]

theorem iblk0_1_apply (t : Fin cfg0.N) (r : Fin 10000) (k : Fin 32) :
    iblk0 (F := Ideal) V c 1 t (ix2 r k) = V c main_arg0 (ix2 ⟨10000 * t.val + r.val, row_lt0 t r⟩ k) := by
  show V c main_arg0 (((cfg0.win 1).blk t).view.emb (ix2 r k)) = _
  rw [emb0_1]

theorem iblk0_2_apply (t : Fin cfg0.N) (k : Fin 32) (j : Fin 64) :
    iblk0 (F := Ideal) V c 2 t (ix2 k j) = V c main_arg4 (ix2 k j) := by
  show V c main_arg4 (((cfg0.win 2).blk t).view.emb (ix2 k j)) = _
  rw [emb0_2]

theorem iblk0_3_apply (t : Fin cfg0.N) (k : Fin 32) (j : Fin 64) :
    iblk0 (F := Ideal) V c 3 t (ix2 k j) = V c main_arg5 (ix2 k j) := by
  show V c main_arg5 (((cfg0.win 3).blk t).view.emb (ix2 k j)) = _
  rw [emb0_3]

theorem iblk0_4_apply (t : Fin cfg0.N) (u : Fin 1) (j : Fin 64) :
    iblk0 (F := Ideal) V c 4 t (ix2 u j) = V c main_v25 (ix2 u j) := by
  show V c main_v25 (((cfg0.win 4).blk t).view.emb (ix2 u j)) = _
  rw [emb0_4]

end Blocks

/-! ## From the blocks to the array -/

section Array

variable (V : (c : Dev nD) → (b : Ref sig .tc) → Buf (Elt Ideal) ((c : Thread nD τ).loc b)) (c : Dev nD)
  (b6 : (⟨S64, .f32⟩ : BufTy).Contents (Elt Ideal))

/-- What point t writes back is block t of the layer on whole arrays: at entry (r, j) both sides are
    max(sum_k a[10000 t + r, k] wl[k, j] + sum_k x[10000 t + r, k] wr[k, j] + b6[j], 0). -/
theorem flushed_eq0 (hb : V c main_v25 = shapeCast S1x64 b6 shapeCasts_S64_S1x64) (t : Fin cfg0.N) :
    (dat0 (F := Ideal) V c).flushed 5 t
      = ((cfg0.win 5).blk t).view.read (Elt Ideal)
          (Cert.Spec.linR0 (F := Ideal) (V c main_v24) (V c main_arg0) (V c main_arg4) (V c main_arg5) b6) := by
  show (cfg0.win 5).cut (grid0.coords t) ((dat0 V c).after 5 t) = _
  rw [after0_5]
  unfold out0_5
  rw [View.canon_unit_zero hz0]
  simp only [View.ld_unit_zero (S := S10000x32) hz0, View.ld_unit_zero (S := S32x64) hz0, View.ld_unit_zero (S := S1x64) hz0]
  funext y
  obtain ⟨r, j, rfl⟩ : ∃ (r : Fin 10000) (j : Fin 64), y = ix2 r j := ⟨y 0, y 1, eq_ix2 y⟩
  refine (payload_at0 _ _ _ _ _ r j).trans ?_
  have hR : ((cfg0.win 5).blk t).view.read (Elt Ideal)
        (Cert.Spec.linR0 (F := Ideal) (V c main_v24) (V c main_arg0) (V c main_arg4) (V c main_arg5) b6) (ix2 r j)
      = Cert.Spec.linR0 (F := Ideal) (V c main_v24) (V c main_arg0) (V c main_arg4) (V c main_arg5) b6
          (ix2 ⟨10000 * t.val + r.val, row_lt0 t r⟩ j) := by
    show Cert.Spec.linR0 (F := Ideal) (V c main_v24) (V c main_arg0) (V c main_arg4) (V c main_arg5) b6
        (((cfg0.win 5).blk t).view.emb (ix2 r j)) = _
    rw [emb0_5]
  rw [hR, layer_at0]
  simp only [iblk0_0_apply, iblk0_1_apply, iblk0_2_apply, iblk0_3_apply, iblk0_4_apply]
  rw [hb, shapeCast_a_1a_apply]

/-- An entry of the array is in block t iff its row is one of rows 10000 t to 10000 t + 9999 (and its column any). -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every point of the grid is some block's index. -/
theorem idx_onto0 : ∀ q : Fin 10, ∃ t : Fin cfg0.N, win0_5.index t = ![q.val, 0] :=
  (by decide +kernel : ∀ q : Fin 10, ∃ t : Fin grid0.N, win0_5.index t = ![q.val, 0])

/-- Row i of the array lies in the block of point i / 10000, which is written back. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

end Array

/-- REGION 0's VALUE. For any entry contents V whose bias row is the reshape of a 64-vector b6: the output array after
    the region is max(agg·W_l + x·W_r + b, 0) of the entry contents of the region's input arrays, as the reference's whole-array
    operations compute it. -/
theorem val0 (V : (c : Dev nD) → (b : Ref sig .tc) → Buf (Elt Ideal) ((c : Thread nD τ).loc b)) (c : Dev nD)
    (b6 : (⟨S64, .f32⟩ : BufTy).Contents (Elt Ideal))
    (hb : V c main_v25 = shapeCast S1x64 b6 shapeCasts_S64_S1x64) :
    (dat0 (F := Ideal) V c).arrAt 5 cfg0.N
      = Cert.Spec.linR0 (F := Ideal) (V c main_v24) (V c main_arg0) (V c main_arg4) (V c main_arg5) b6 := by
  exact (dat0 (F := Ideal) V c).arrAt_eq_of_cover 5 _ (fun t _ => flushed_eq0 V c b6 hb t) cover0

end Cert.KernelIdeal.Hand

end
-- ==== Proof.Val1.lean ====
/-
  What region 1 leaves in its output array, at the ideal instance: the ten row tiles written back, read as one
  whole-array function, are the second SAGE layer of the reference on whole arrays.
-/
import proofs.«401791_j6786048328256_1_alg».proof.Proof.Body1
import proofs.«401791_j6786048328256_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

/-! ## A product of a tile of rows with a weight matrix, at one entry

Entry (r, j) of a 10000 x 64 tile times a 64 x 128 matrix, accumulated into zeros, is the sum over the 64 shared
positions k of the tile's (r, k) times the matrix's (k, j). The four lemmas before it say which operand entry a
result entry and a contraction position name, axis by axis. -/

theorem tileL1_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem tileL1_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem tileR1_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem tileR1_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

theorem tileDot_apply1 (a : FVec Ideal S10000x64 .f32) (w : FVec Ideal S64x128 .f32) (r : Fin 10000) (j : Fin 128) :
    matmul dot_S10000x64_S64x128_S10000x128_1_0_0_1_n_n (some .fp32) a w (constant (F := Ideal) S10000x128 .f32 0x00000000#32) (ix2 r j)
      = ∑ k : Fin 64, a (ix2 r k) * w (ix2 k j) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 r j) ((ValueIdx.contrEquiv1 dot_S10000x64_S64x128_S10000x128_1_0_0_1_n_n 64 rfl rfl).symm k) = ix2 r k := funext fun a => Fin.ext (by
    match a with
    | ⟨0, _⟩ => exact tileL1_0 _ _
    | ⟨1, _⟩ => exact (tileL1_1 _ _).trans hk)
  have er : dot_S10000x64_S64x128_S10000x128_1_0_0_1_n_n.rhsIdx (ix2 r j) ((ValueIdx.contrEquiv1 dot_S10000x64_S64x128_S10000x128_1_0_0_1_n_n 64 rfl rfl).symm k) = ix2 k j := funext fun a => Fin.ext (by
    match a with
    | ⟨0, _⟩ => exact (tileR1_0 _ _).trans hk
    | ⟨1, _⟩ => exact tileR1_1 _ _)
  rw [el, er]

/-! ## The same product on whole arrays

Entry (i, j) of the 100000 x 64 array times a 64 x 128 matrix, as the reference's contraction writes it, is the same
sum over the 64 shared positions. -/

theorem wholeL1_0 (i : S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin S100000x64.rank) ∈ Cert.ReferenceIdeal.dot_S100000x64_S64x128_S100000x128_1_0_0_1_n_n.lhsBatch by decide), dif_pos (show (0 : Fin S100000x64.rank) ∈ Cert.ReferenceIdeal.dot_S100000x64_S64x128_S100000x128_1_0_0_1_n_n.lhsNonContracting by decide)]
  rfl
theorem wholeL1_1 (i : S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem wholeR1_0 (i : S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem wholeR1_1 (i : S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin S64x128.rank) ∈ Cert.ReferenceIdeal.dot_S100000x64_S64x128_S100000x128_1_0_0_1_n_n.rhsBatch by decide), dif_pos (show (1 : Fin S64x128.rank) ∈ Cert.ReferenceIdeal.dot_S100000x64_S64x128_S100000x128_1_0_0_1_n_n.rhsNonContracting by decide)]
  rfl

theorem wholeDot_apply1 (a : FVec Ideal S100000x64 .f32) (w : FVec Ideal S64x128 .f32) (i : Fin 100000) (j : Fin 128) :
    Host.dotGeneral (F := Ideal) Cert.ReferenceIdeal.dot_S100000x64_S64x128_S100000x128_1_0_0_1_n_n none a w (ix2 i j)
      = ∑ k : Fin 64, a (ix2 i k) * w (ix2 k j) := by
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 i j) ((ValueIdx.contrEquiv1 Cert.ReferenceIdeal.dot_S100000x64_S64x128_S100000x128_1_0_0_1_n_n 64 rfl rfl).symm k) = ix2 i k := funext fun a => Fin.ext (by
    match a with
    | ⟨0, _⟩ => exact wholeL1_0 _ _
    | ⟨1, _⟩ => exact (wholeL1_1 _ _).trans hk)
  have er : Cert.ReferenceIdeal.dot_S100000x64_S64x128_S100000x128_1_0_0_1_n_n.rhsIdx (ix2 i j) ((ValueIdx.contrEquiv1 Cert.ReferenceIdeal.dot_S100000x64_S64x128_S100000x128_1_0_0_1_n_n 64 rfl rfl).symm k) = ix2 k j := funext fun a => Fin.ext (by
    match a with
    | ⟨0, _⟩ => exact (wholeR1_0 _ _).trans hk
    | ⟨1, _⟩ => exact wholeR1_1 _ _)
  rw [el, er]

/-! ## One tile's result at an entry

The bias row, held as a 1 x 128 block, spread over the 10000 rows of a tile reads its entry (0, j) in every row; so
entry (r, j) of what the body stores is max(sum_k a[r,k] wl[k,j] + sum_k x[r,k] wr[k,j] + b[0,j], 0). -/

theorem biasTile_apply1 (b : Vec Ideal S1x128 .f32) (r : Fin 10000) (j : Fin 128) :
    broadcastTo S10000x128 b broadcasts_S1x128_S10000x128 (ix2 r j) = b (ix2 0 j) := by
  exact broadcastTo_apply b broadcasts_S1x128_S10000x128 (ix2 r j) (ix2 0 j) (fun a => match a with
    | ⟨0, _⟩ => by show (0 : Nat) = if (1 : Nat) = 1 then 0 else r.val; rw [if_pos rfl]
    | ⟨1, _⟩ => by show j.val = if (128 : Nat) = 1 then 0 else j.val; rw [if_neg (by decide)])

theorem payload_at1 (a x : Vec Ideal S10000x64 .f32) (wl wr : Vec Ideal S64x128 .f32) (b : Vec Ideal S1x128 .f32) (r : Fin 10000) (j : Fin 128) :
    k1_pay1 a wl x wr b (ix2 r j)
      = max ((∑ k : Fin 64, a (ix2 r k) * wl (ix2 k j)) + (∑ k : Fin 64, x (ix2 r k) * wr (ix2 k j)) + b (ix2 0 j)) 0 := by
  unfold k1_pay1
  simp only [shapeCast_self]
  rw [maximumf_apply, addf_apply, addf_apply, tileDot_apply1, tileDot_apply1, biasTile_apply1, broadcast_apply]
  exact congrArg (max _) Ideal.ofBits_zero_f32

/-! ## The reference's layer at an entry

The bias vector made a 1 x 128 row and then spread over the 100000 rows reads its entry j in every row, and the
spread scalar zero reads zero; so entry (i, j) of the layer on whole arrays is the same expression of row i. -/

theorem biasAll_apply1 (b9 : Cert.Spec.CT (F := Ideal) S128 .f32) (i : Fin 100000) (j : Fin 128) :
    broadcastInDim S100000x128 ![0, 1] Cert.ReferenceIdeal.Facts₀.bcast_S1x128_S100000x128_0_1 (broadcastInDim S1x128 ![1] Cert.ReferenceIdeal.Facts₀.bcast_S128_S1x128_1 b9) (ix2 i j) = b9 (ix1 j) := by
  refine (broadcastInDim_apply _ _ _ (ix2 i j) (ix2 0 j) (fun a => match a with
    | ⟨0, _⟩ => by show (0 : Nat) = if (1 : Nat) = 1 then 0 else i.val; rw [if_pos rfl]
    | ⟨1, _⟩ => by show j.val = if (128 : Nat) = 1 then 0 else j.val; rw [if_neg (by decide)])).trans ?_
  exact broadcastInDim_apply _ _ b9 (ix2 0 j) (ix1 j) (fun a => match a with
    | ⟨0, _⟩ => by show j.val = if (128 : Nat) = 1 then 0 else j.val; rw [if_neg (by decide)])

theorem zeroAll_apply1 (i : Fin 100000) (j : Fin 128) :
    broadcastInDim S100000x128 ![] Cert.ReferenceIdeal.Facts₀.bcast_S_S100000x128 (constant (F := Ideal) S_ .f32 0x00000000#32) (ix2 i j) = 0 := by
  refine (broadcastInDim_apply _ _ _ (ix2 i j) ix0 (fun a => a.elim0)).trans ?_
  exact Ideal.ofBits_zero_f32

theorem layer_at1 (a x : Cert.Spec.CT (F := Ideal) S100000x64 .f32) (wl wr : Cert.Spec.CT (F := Ideal) S64x128 .f32)
    (b9 : Cert.Spec.CT (F := Ideal) S128 .f32) (i : Fin 100000) (j : Fin 128) :
    Cert.Spec.linR1 (F := Ideal) a x wl wr b9 (ix2 i j)
      = max ((∑ k : Fin 64, a (ix2 i k) * wl (ix2 k j)) + (∑ k : Fin 64, x (ix2 i k) * wr (ix2 k j)) + b9 (ix1 j)) 0 := by
  unfold Cert.Spec.linR1
  rw [maximumf_apply, addf_apply, addf_apply, wholeDot_apply1, wholeDot_apply1, biasAll_apply1, zeroAll_apply1]

/-! ## Where a block's entry sits in its array

The two row-tiled inputs and the output are cut into ten blocks of 10000 rows, block t at rows 10000 t onwards;
the two weight matrices and the bias row are one block each. So entry (r, k) of block t of a row-tiled array is
entry (10000 t + r, k) of the array, and an entry of a one-block array is the array's own. -/

theorem hz1 : (![0, 0] : Fin 2 → Nat) = fun _ => 0 := funext fun a => by fin_cases a <;> rfl

/-- The block index of every window at every point of the grid. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of block t is a row of the array. -/
theorem row_lt1 (t : Fin cfg1.N) (r : Fin 10000) : 10000 * t.val + r.val < 100000 := by
  have ht : t.val < grid1.N := t.isLt
  rw [N_1] at ht
  have hr := r.isLt
  omega

theorem emb1_0 (t : Fin cfg1.N) (r : Fin 10000) (k : Fin 64) :
    ((cfg1.win 0).blk t).view.emb (ix2 r k) = ix2 ⟨10000 * t.val + r.val, row_lt1 t r⟩ k := by
  obtain ⟨e0, e1, -⟩ := idx_facts1 t
  funext a; apply Fin.ext
  match a with
  | ⟨0, _⟩ => show win1_0.index t (0 : Fin 2) * 10000 + 1 * r.val = 10000 * t.val + r.val; omega
  | ⟨1, _⟩ => show win1_0.index t (1 : Fin 2) * 64 + 1 * k.val = k.val; omega

theorem emb1_1 (t : Fin cfg1.N) (r : Fin 10000) (k : Fin 64) :
    ((cfg1.win 1).blk t).view.emb (ix2 r k) = ix2 ⟨10000 * t.val + r.val, row_lt1 t r⟩ k := by
  obtain ⟨-, -, e0, e1, -⟩ := idx_facts1 t
  funext a; apply Fin.ext
  match a with
  | ⟨0, _⟩ => show win1_1.index t (0 : Fin 2) * 10000 + 1 * r.val = 10000 * t.val + r.val; omega
  | ⟨1, _⟩ => show win1_1.index t (1 : Fin 2) * 64 + 1 * k.val = k.val; omega

theorem emb1_2 (t : Fin cfg1.N) (k : Fin 64) (j : Fin 128) :
    ((cfg1.win 2).blk t).view.emb (ix2 k j) = ix2 k j := by
  obtain ⟨-, -, -, -, e0, e1, -⟩ := idx_facts1 t
  funext a; apply Fin.ext
  match a with
  | ⟨0, _⟩ => show win1_2.index t (0 : Fin 2) * 64 + 1 * k.val = k.val; omega
  | ⟨1, _⟩ => show win1_2.index t (1 : Fin 2) * 128 + 1 * j.val = j.val; omega

theorem emb1_3 (t : Fin cfg1.N) (k : Fin 64) (j : Fin 128) :
    ((cfg1.win 3).blk t).view.emb (ix2 k j) = ix2 k j := by
  obtain ⟨-, -, -, -, -, -, e0, e1, -⟩ := idx_facts1 t
  funext a; apply Fin.ext
  match a with
  | ⟨0, _⟩ => show win1_3.index t (0 : Fin 2) * 64 + 1 * k.val = k.val; omega
  | ⟨1, _⟩ => show win1_3.index t (1 : Fin 2) * 128 + 1 * j.val = j.val; omega

theorem emb1_4 (t : Fin cfg1.N) (u : Fin 1) (j : Fin 128) :
    ((cfg1.win 4).blk t).view.emb (ix2 u j) = ix2 u j := by
  obtain ⟨-, -, -, -, -, -, -, -, e0, e1, -⟩ := idx_facts1 t
  funext a; apply Fin.ext
  match a with
  | ⟨0, _⟩ => show win1_4.index t (0 : Fin 2) * 1 + 1 * u.val = u.val; omega
  | ⟨1, _⟩ => show win1_4.index t (1 : Fin 2) * 128 + 1 * j.val = j.val; omega

theorem emb1_5 (t : Fin cfg1.N) (r : Fin 10000) (j : Fin 128) :
    ((cfg1.win 5).blk t).view.emb (ix2 r j) = ix2 ⟨10000 * t.val + r.val, row_lt1 t r⟩ j := by
  obtain ⟨-, -, -, -, -, -, -, -, -, -, e0, e1⟩ := idx_facts1 t
  funext a; apply Fin.ext
  match a with
  | ⟨0, _⟩ => show win1_5.index t (0 : Fin 2) * 10000 + 1 * r.val = 10000 * t.val + r.val; omega
  | ⟨1, _⟩ => show win1_5.index t (1 : Fin 2) * 128 + 1 * j.val = j.val; omega

section Blocks

variable (V : (c : Dev nD) → (b : Ref sig .tc) → Buf (Elt Ideal) ((c : Thread nD τ).loc b)) (c : Dev nD)

/-! Each input block at a point, read at an entry, is its array read where the block sits. -/

theorem iblk1_0_apply (t : Fin cfg1.N) (r : Fin 10000) (k : Fin 64) :
    iblk1 (F := Ideal) V c 0 t (ix2 r k) = V c main_v39 (ix2 ⟨10000 * t.val + r.val, row_lt1 t r⟩ k) := by
  show V c main_v39 (((cfg1.win 0).blk t).view.emb (ix2 r k)) = _
  rw [emb1_0]

theorem iblk1_1_apply (t : Fin cfg1.N) (r : Fin 10000) (k : Fin 64) :
    iblk1 (F := Ideal) V c 1 t (ix2 r k) = V c main_v26 (ix2 ⟨10000 * t.val + r.val, row_lt1 t r⟩ k) := by
  show V c main_v26 (((cfg1.win 1).blk t).view.emb (ix2 r k)) = _
  rw [emb1_1]

theorem iblk1_2_apply (t : Fin cfg1.N) (k : Fin 64) (j : Fin 128) :
    iblk1 (F := Ideal) V c 2 t (ix2 k j) = V c main_arg7 (ix2 k j) := by
  show V c main_arg7 (((cfg1.win 2).blk t).view.emb (ix2 k j)) = _
  rw [emb1_2]

theorem iblk1_3_apply (t : Fin cfg1.N) (k : Fin 64) (j : Fin 128) :
    iblk1 (F := Ideal) V c 3 t (ix2 k j) = V c main_arg8 (ix2 k j) := by
  show V c main_arg8 (((cfg1.win 3).blk t).view.emb (ix2 k j)) = _
  rw [emb1_3]

theorem iblk1_4_apply (t : Fin cfg1.N) (u : Fin 1) (j : Fin 128) :
    iblk1 (F := Ideal) V c 4 t (ix2 u j) = V c main_v40 (ix2 u j) := by
  show V c main_v40 (((cfg1.win 4).blk t).view.emb (ix2 u j)) = _
  rw [emb1_4]

end Blocks

/-! ## From the blocks to the array -/

section Array

variable (V : (c : Dev nD) → (b : Ref sig .tc) → Buf (Elt Ideal) ((c : Thread nD τ).loc b)) (c : Dev nD)
  (b9 : (⟨S128, .f32⟩ : BufTy).Contents (Elt Ideal))

/-- What point t writes back is block t of the layer on whole arrays: at entry (r, j) both sides are
    max(sum_k a[10000 t + r, k] wl[k, j] + sum_k x[10000 t + r, k] wr[k, j] + b9[j], 0). -/
theorem flushed_eq1 (hb : V c main_v40 = shapeCast S1x128 b9 shapeCasts_S128_S1x128) (t : Fin cfg1.N) :
    (dat1 (F := Ideal) V c).flushed 5 t
      = ((cfg1.win 5).blk t).view.read (Elt Ideal)
          (Cert.Spec.linR1 (F := Ideal) (V c main_v39) (V c main_v26) (V c main_arg7) (V c main_arg8) b9) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x128) hz1, View.ld_unit_zero (S := S1x128) hz1]
  funext y
  obtain ⟨r, j, rfl⟩ : ∃ (r : Fin 10000) (j : Fin 128), y = ix2 r j := ⟨y 0, y 1, eq_ix2 y⟩
  refine (payload_at1 _ _ _ _ _ r j).trans ?_
  have hR : ((cfg1.win 5).blk t).view.read (Elt Ideal)
        (Cert.Spec.linR1 (F := Ideal) (V c main_v39) (V c main_v26) (V c main_arg7) (V c main_arg8) b9) (ix2 r j)
      = Cert.Spec.linR1 (F := Ideal) (V c main_v39) (V c main_v26) (V c main_arg7) (V c main_arg8) b9
          (ix2 ⟨10000 * t.val + r.val, row_lt1 t r⟩ j) := by
    show Cert.Spec.linR1 (F := Ideal) (V c main_v39) (V c main_v26) (V c main_arg7) (V c main_arg8) b9
        (((cfg1.win 5).blk t).view.emb (ix2 r j)) = _
    rw [emb1_5]
  rw [hR, layer_at1]
  simp only [iblk1_0_apply, iblk1_1_apply, iblk1_2_apply, iblk1_3_apply, iblk1_4_apply]
  rw [hb, shapeCast_a_1a_apply]

/-- An entry of the array is in block t iff its row is one of rows 10000 t to 10000 t + 9999 (and its column any). -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v41).slice (win1_5.rect t)).set ↔ _
  rw [View.set_slice_whole, Rect.mem_set_unit]
  exact Iff.rfl

/-- Every point of the grid is some block's index. -/
theorem idx_onto1 : ∀ q : Fin 10, ∃ t : Fin cfg1.N, win1_5.index t = ![q.val, 0] :=
  (by decide +kernel : ∀ q : Fin 10, ∃ t : Fin grid1.N, win1_5.index t = ![q.val, 0])

/-- Row i of the array lies in the block of point i / 10000, which is written back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

end Array

/-- REGION 1's VALUE. For any entry contents V whose bias row is the reshape of a 128-vector b9: the output array after
    the region is max(agg·W_l + x·W_r + b, 0) of the entry contents of the region's input arrays, as the reference's whole-array
    operations compute it. -/
theorem val1 (V : (c : Dev nD) → (b : Ref sig .tc) → Buf (Elt Ideal) ((c : Thread nD τ).loc b)) (c : Dev nD)
    (b9 : (⟨S128, .f32⟩ : BufTy).Contents (Elt Ideal))
    (hb : V c main_v40 = shapeCast S1x128 b9 shapeCasts_S128_S1x128) :
    (dat1 (F := Ideal) V c).arrAt 5 cfg1.N
      = Cert.Spec.linR1 (F := Ideal) (V c main_v39) (V c main_v26) (V c main_arg7) (V c main_arg8) b9 := by
  exact (dat1 (F := Ideal) V c).arrAt_eq_of_cover 5 _ (fun t _ => flushed_eq1 V c b9 hb t) cover1

end Cert.KernelIdeal.Hand

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.Val2.lean ====
/-
  What region 2 leaves in its output array, at the ideal instance: the accumulated one-hot products over the ten
  row tiles, divided at the last point, are the reference's global mean pool on whole arrays.
  The road: one entry of the one-hot matrix is 1 or 0 by a comparison of id words; one point adds to the sums the
  tile's features weighted by those entries and to the counts the entries themselves; by induction on the point the
  accumulators hold the first tiles' parts of the sums over the nodes; the ten tiles make up all 100000 nodes; the
  reference's two scatter-adds are the same sums with the id read signed, which for a graph number below 512 is
  the same test; the quotients then agree entry by entry, and the one block written back is the whole array.
-/
import proofs.«401791_j6786048328256_1_alg».proof.Proof.Body2Defs
import proofs.«401791_j6786048328256_1_alg».proof.Proof.Spec
import proofs.«401791_j6786048328256_1_alg».proof.Proof.LibSegmentSum
import proofs.«401791_j6786048328256_1_alg».proof.Proof.LibScatterVec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open scoped BigOperators

/-! ## One entry of the one-hot matrix -/

/-- A one-bit word widened to 32 bits and converted to a float is the extended real 1 when the bit is set, else 0. -/
theorem sitofp_bit (c : BitVec 1) :
    (FloatOps.sitofp (F := Ideal) .f32 (c.setWidth 32) : EReal) = if c = 1#1 then 1 else 0 := by
  rcases BitVec.eq_zero_or_eq_one c with h | h
  · subst h
    show ((((0#1 : BitVec 1).setWidth 32).toInt : ℝ) : EReal) = _
    simp
  · subst h
    show ((((1#1 : BitVec 1).setWidth 32).toInt : ℝ) : EReal) = _
    have e : ((1#1 : BitVec 1).setWidth 32).toInt = 1 := by decide
    rw [e]; simp

/-- One entry of the one-hot matrix of a tile's graph ids: 1 where the row's id word is the column's number, else 0.
    The id column is spread along the 512 columns, the column numbers along the 10000 rows, and the two are compared
    word for word. -/
theorem onehot_apply (b : Vec Ideal S10000x1 .i32) (r : Fin 10000) (g : Fin 512) :
    k2_pay3 (F := Ideal) b (ix2 r g) = if b (ix2 r (0 : Fin 1)) = BitVec.ofNat 32 g.val then (1 : EReal) else 0 := by
  unfold k2_pay3
  rw [sitofp_apply, extui_apply]
  have e6 : broadcastTo S10000x512 (shapeCast S10000x1 b shapeCasts_S10000x1_S10000x1) broadcasts_S10000x1_S10000x512 (ix2 r g) = b (ix2 r (0 : Fin 1)) := by
    rw [shapeCast_self]
    exact broadcastTo_apply _ _ (ix2 r g) (ix2 r (0 : Fin 1)) (fun a => match a with
      | ⟨0, _⟩ => by show r.val = if (10000 : Nat) = 1 then 0 else r.val; rw [if_neg (by decide)]
      | ⟨1, _⟩ => by show 0 = if (1 : Nat) = 1 then 0 else g.val; rw [if_pos rfl])
  have e7 : broadcastTo S10000x512 (iota .tc S1x512 32 [1] iota_S1x512_d1_w32) broadcasts_S1x512_S10000x512 (ix2 r g) = BitVec.ofNat 32 g.val := by
    refine (broadcastTo_apply _ _ (ix2 r g) (ix2 (0 : Fin 1) g) (fun a => match a with
      | ⟨0, _⟩ => by show 0 = if (1 : Nat) = 1 then 0 else r.val; rw [if_pos rfl]
      | ⟨1, _⟩ => by show g.val = if (512 : Nat) = 1 then 0 else g.val; rw [if_neg (by decide)])).trans ?_
    exact iota_single_apply .tc S1x512 32 1 iota_S1x512_d1_w32 (ix2 (0 : Fin 1) g)
  show (FloatOps.sitofp (F := Ideal) .f32 ((IntOp.cmpi .eq _ _).setWidth 32) : EReal) = _
  rw [e6, e7, sitofp_bit]
  exact if_congr IntOp.cmpi_eq rfl rfl

/-! ## The product with the one-hot matrix, read at an entry

The matmul contracts the row axis (axis 0) of both operands: entry (g, d) of the product reads the one-hot matrix
at (k, g) and the features at (k, d), k running over the tile's 10000 rows. -/

theorem ohdot_lhs_0 (i : S512x128.Idx) (q : dot_S10000x512_S10000x128_S512x128_0_0_1_1_n_n.contr.Idx) :
    (dot_S10000x512_S10000x128_S512x128_0_0_1_1_n_n.lhsIdx i q 0).val = (q ⟨0, by decide⟩).val :=
  dot_S10000x512_S10000x128_S512x128_0_0_1_1_n_n.lhsIdx_val_of_single rfl i q
theorem ohdot_lhs_1 (i : S512x128.Idx) (q : dot_S10000x512_S10000x128_S512x128_0_0_1_1_n_n.contr.Idx) :
    (dot_S10000x512_S10000x128_S512x128_0_0_1_1_n_n.lhsIdx i q 1).val = (i 0).val := by
  unfold DotDims.lhsIdx
  rw [dif_neg (show ¬(1 : Fin S10000x512.rank) ∈ dot_S10000x512_S10000x128_S512x128_0_0_1_1_n_n.lhsBatch by decide), dif_pos (show (1 : Fin S10000x512.rank) ∈ dot_S10000x512_S10000x128_S512x128_0_0_1_1_n_n.lhsNonContracting by decide)]
  rfl
theorem ohdot_rhs_0 (i : S512x128.Idx) (q : dot_S10000x512_S10000x128_S512x128_0_0_1_1_n_n.contr.Idx) :
    (dot_S10000x512_S10000x128_S512x128_0_0_1_1_n_n.rhsIdx i q 0).val = (q ⟨0, by decide⟩).val :=
  dot_S10000x512_S10000x128_S512x128_0_0_1_1_n_n.rhsIdx_val_of_single rfl i q
theorem ohdot_rhs_1 (i : S512x128.Idx) (q : dot_S10000x512_S10000x128_S512x128_0_0_1_1_n_n.contr.Idx) :
    (dot_S10000x512_S10000x128_S512x128_0_0_1_1_n_n.rhsIdx i q 1).val = (i 1).val := by
  unfold DotDims.rhsIdx
  rw [dif_neg (show ¬(1 : Fin S10000x128.rank) ∈ dot_S10000x512_S10000x128_S512x128_0_0_1_1_n_n.rhsBatch by decide), dif_pos (show (1 : Fin S10000x128.rank) ∈ dot_S10000x512_S10000x128_S512x128_0_0_1_1_n_n.rhsNonContracting by decide)]
  rfl

/-- The product (one-hot)ᵀ · features into a zero accumulator, at entry (g, d): the sum over the tile's rows of the
    one-hot entry (k, g) times the feature (k, d). -/
theorem ohdot_apply (A : FVec Ideal S10000x512 .f32) (X : FVec Ideal S10000x128 .f32) (g : Fin 512) (d : Fin 128) :
    FloatOps.matmul dot_S10000x512_S10000x128_S512x128_0_0_1_1_n_n (some .fp32) A X (constant (F := Ideal) S512x128 .f32 0x00000000#32) (ix2 g d)
      = ∑ k : Fin 10000, A (ix2 k g) * X (ix2 k d) := by
  rw [Ideal.matmul_constant_zero_apply, ← Equiv.sum_comp (ValueIdx.contrEquiv1 dot_S10000x512_S10000x128_S512x128_0_0_1_1_n_n 10000 rfl rfl).symm]
  refine Finset.sum_congr rfl fun k _ => ?_
  have hk := ValueIdx.contrEquiv1_symm_val dot_S10000x512_S10000x128_S512x128_0_0_1_1_n_n 10000 rfl rfl k
  have el : dot_S10000x512_S10000x128_S512x128_0_0_1_1_n_n.lhsIdx (ix2 g d) ((ValueIdx.contrEquiv1 dot_S10000x512_S10000x128_S512x128_0_0_1_1_n_n 10000 rfl rfl).symm k) = ix2 k g := funext fun a => Fin.ext (by
    match a with
    | ⟨0, _⟩ => exact (ohdot_lhs_0 _ _).trans hk
    | ⟨1, _⟩ => exact ohdot_lhs_1 _ _)
  have er : dot_S10000x512_S10000x128_S512x128_0_0_1_1_n_n.rhsIdx (ix2 g d) ((ValueIdx.contrEquiv1 dot_S10000x512_S10000x128_S512x128_0_0_1_1_n_n 10000 rfl rfl).symm k) = ix2 k d := funext fun a => Fin.ext (by
    match a with
    | ⟨0, _⟩ => exact (ohdot_rhs_0 _ _).trans hk
    | ⟨1, _⟩ => exact ohdot_rhs_1 _ _)
  rw [el, er]

/-- ONE POINT'S UPDATE OF THE SUMS at (g, d): what was there plus, over the tile's rows whose id word is g, the
    feature at column d (each row enters with the factor 1 or 0 of its one-hot entry). -/
theorem stepS_apply (h : Vec Ideal S10000x128 .f32) (b : Vec Ideal S10000x1 .i32) (s : Vec Ideal S512x128 .f32) (g : Fin 512) (d : Fin 128) :
    stepS (F := Ideal) h b s (ix2 g d)
      = s (ix2 g d) + ∑ r : Fin 10000, (if b (ix2 r (0 : Fin 1)) = BitVec.ofNat 32 g.val then (1 : EReal) else 0) * h (ix2 r d) := by
  unfold stepS k2_pay4
  rw [View.ld_unit_zero (S := S10000x1) (by funext a; match a with | ⟨0, _⟩ => rfl | ⟨1, _⟩ => rfl), View.ld_unit_zero (S := S10000x128) (by funext a; match a with | ⟨0, _⟩ => rfl | ⟨1, _⟩ => rfl)]
  rw [shapeCast_self, shapeCast_self, addf_apply]
  refine congrArg (s (ix2 g d) + ·) ?_
  refine (ohdot_apply _ _ g d).trans ?_
  refine Finset.sum_congr rfl fun r _ => ?_
  rw [onehot_apply]

/-! ## The column sums of the one-hot matrix, and one point's update of the counts -/

/-- The sum over the rows of a 10000 × 512 matrix, at column g. -/
theorem colsum_apply (A : FVec Ideal S10000x512 .f32) (hφ : FKind.Formats .f32)
    (hacc : (0x00000000#32 : BitVec 32) = FKind.add.neutral .f32 hφ) (g : Fin 512) :
    multiReduction (F := Ideal) .add [0] S512 A 0x00000000#32 reduces_S10000x512_S512 hφ hacc (ix1 g)
      = ∑ k : Fin 10000, A (ix2 k g) := by
  refine (Ideal.multiReduction_add_single A 0x00000000#32 reduces_S10000x512_S512 hφ hacc (ix1 g)).trans ?_
  refine Finset.sum_congr rfl fun k _ => congrArg A ?_
  funext a
  match a with
  | ⟨0, _⟩ => rfl
  | ⟨1, _⟩ => rfl

/-- ONE POINT'S UPDATE OF THE COUNTS at graph g: what was there plus the number of the tile's rows whose id word is g
    (each row enters with its one-hot entry, 1 or 0). -/
theorem stepC_apply (b : Vec Ideal S10000x1 .i32) (n : Vec Ideal S1x512 .f32) (g : Fin 512) :
    stepC (F := Ideal) b n (ix2 (0 : Fin 1) g)
      = n (ix2 (0 : Fin 1) g) + ∑ r : Fin 10000, if b (ix2 r (0 : Fin 1)) = BitVec.ofNat 32 g.val then (1 : EReal) else 0 := by
  unfold stepC k2_pay5
  rw [View.ld_unit_zero (S := S10000x1) (by funext a; match a with | ⟨0, _⟩ => rfl | ⟨1, _⟩ => rfl)]
  rw [shapeCast_self, addf_apply]
  refine congrArg (n (ix2 (0 : Fin 1) g) + ·) ?_
  refine (shapeCast_a_1a_apply _ shapeCasts_S512_S1x512 (0 : Fin 1) g).trans ?_
  refine (colsum_apply _ _ _ g).trans ?_
  exact Finset.sum_congr rfl fun r _ => onehot_apply b r g

/-! ## The final quotient -/

/-- The stored quotient at (g, d): the sum there over the larger of graph g's count and one. The counts row is
    transposed to a column, clamped below by one, and spread along the 128 feature columns. -/
theorem fin2_apply (s : Vec Ideal S512x128 .f32) (n : Vec Ideal S1x512 .f32) (g : Fin 512) (d : Fin 128) :
    fin2 (F := Ideal) s n (ix2 g d)
      = Ideal.div (s (ix2 g d)) (max (n (ix2 (0 : Fin 1) g)) (Ideal.ofBits .f32 0x3F800000#32)) := by
  unfold fin2 k2_pay6
  rw [divf_apply]
  refine congrArg (Ideal.div (s (ix2 g d))) ?_
  refine (broadcastTo_apply _ broadcasts_S512x1_S512x128 (ix2 g d) (ix2 g (0 : Fin 1)) (fun a => match a with
    | ⟨0, _⟩ => by show g.val = if (512 : Nat) = 1 then 0 else g.val; rw [if_neg (by decide)]
    | ⟨1, _⟩ => by show 0 = if (1 : Nat) = 1 then 0 else d.val; rw [if_pos rfl])).trans ?_
  rw [maximumf_apply, broadcast_apply]
  refine congrArg (max · (Ideal.ofBits .f32 0x3F800000#32)) ?_
  exact transpose_ix2_apply n transposes_S1x512_p1_0_S512x1 g (0 : Fin 1)

/-! ## The windows' blocks as rows of the arrays

The windows' index maps, decided once over the ten points: the features' and the ids' block at point t is block t along
the rows, block 0 along the columns; the output's one block is the whole array at every point. -/

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

theorem lt_ten (t : Fin cfg2.N) : t.val < 10 := lt_of_lt_of_eq t.isLt N_2

/-- Row r of the features' block at point t is row 10000 t + r of the array. -/
theorem iblk2_0_apply (V : (c : Dev nD) → (b : Ref sig .tc) → Buf (Elt Ideal) ((c : Thread nD τ).loc b)) (c : Dev nD)
    (t : Fin cfg2.N) (r : Fin 10000) (d : Fin 128) :
    iblk2 (F := Ideal) V c 0 t (ix2 r d)
      = V c main_v41 (ix2 (⟨10000 * t.val + r.val, by have := lt_ten t; omega⟩ : Fin 100000) d) := by
  obtain ⟨e0, e1, -⟩ := idx_facts2 t
  show V c main_v41 (((cfg2.win 0).blk t).view.emb (ix2 r d)) = _
  refine congrArg (V c main_v41) ?_
  funext a; apply Fin.ext
  match a with
  | ⟨0, _⟩ => show win2_0.index t (0 : Fin 2) * 10000 + 1 * r.val = 10000 * t.val + r.val; omega
  | ⟨1, _⟩ => show win2_0.index t (1 : Fin 2) * 128 + 1 * d.val = d.val; omega

/-- Row r of the ids' block at point t is row 10000 t + r of the id column. -/
theorem iblk2_1_apply (V : (c : Dev nD) → (b : Ref sig .tc) → Buf (Elt Ideal) ((c : Thread nD τ).loc b)) (c : Dev nD)
    (t : Fin cfg2.N) (r : Fin 10000) :
    iblk2 (F := Ideal) V c 1 t (ix2 r (0 : Fin 1))
      = V c main_v42 (ix2 (⟨10000 * t.val + r.val, by have := lt_ten t; omega⟩ : Fin 100000) (0 : Fin 1)) := by
  obtain ⟨-, -, e0, e1, -⟩ := idx_facts2 t
  show V c main_v42 (((cfg2.win 1).blk t).view.emb (ix2 r (0 : Fin 1))) = _
  refine congrArg (V c main_v42) ?_
  funext a; apply Fin.ext
  match a with
  | ⟨0, _⟩ => show win2_1.index t (0 : Fin 2) * 10000 + 1 * r.val = 10000 * t.val + r.val; omega
  | ⟨1, _⟩ => show win2_1.index t (1 : Fin 2) * 1 + 1 * 0 = 0; omega

/-! ## Sums over the nodes, tile by tile -/

/-- The sum of f over the rows of tile t (rows 10000 t … 10000 t + 9999); nothing past the tenth tile. -/
def tileSum (f : Fin 100000 → EReal) (t : ℕ) : EReal :=
  if ht : t < 10 then ∑ r : Fin 10000, f ⟨10000 * t + r.val, by omega⟩ else 0

/-- The ten tiles' sums add up to the sum over all 100000 nodes: node i is row i mod 10000 of tile i / 10000. -/
theorem sum_tileSum (f : Fin 100000 → EReal) : ∑ t ∈ Finset.range 10, tileSum f t = ∑ i : Fin 100000, f i := by
  rw [Finset.sum_range]
  have e : ∀ t : Fin 10, tileSum f t.val = ∑ r : Fin 10000, f ⟨10000 * t.val + r.val, by omega⟩ := fun t => dif_pos t.isLt
  rw [Finset.sum_congr rfl fun t _ => e t, ← Fintype.sum_prod_type']
  refine Fintype.sum_equiv (finProdFinEquiv (m := 10) (n := 10000)) _ (fun i : Fin (10 * 10000) => f i) fun p => ?_
  refine congrArg f (Fin.ext ?_)
  show 10000 * p.1.val + p.2.val = p.2.val + 10000 * p.1.val
  omega

/-- Node i's term of graph g's feature sum at column d: the feature, counted once if the node's id word is g. -/
def entS (H : S100000x128.Idx → EReal) (B : S100000x1.Idx → BitVec 32) (g : Fin 512) (d : Fin 128) (i : Fin 100000) : EReal :=
  (if B (ix2 i (0 : Fin 1)) = BitVec.ofNat 32 g.val then (1 : EReal) else 0) * H (ix2 i d)
/-- Node i's term of graph g's node count: 1 if the node's id word is g. -/
def entC (B : S100000x1.Idx → BitVec 32) (g : Fin 512) (i : Fin 100000) : EReal :=
  if B (ix2 i (0 : Fin 1)) = BitVec.ofNat 32 g.val then (1 : EReal) else 0

/-! ## The accumulators after each point -/

/-- Point t adds to the sums, at (g, d), tile t's part of graph g's feature sum. -/
theorem stepS_blk (V : (c : Dev nD) → (b : Ref sig .tc) → Buf (Elt Ideal) ((c : Thread nD τ).loc b)) (c : Dev nD)
    (t : Fin cfg2.N) (s : Vec Ideal S512x128 .f32) (g : Fin 512) (d : Fin 128) :
    stepS (F := Ideal) (iblk2 V c 0 t) (iblk2 V c 1 t) s (ix2 g d)
      = s (ix2 g d) + tileSum (entS (V c main_v41) (V c main_v42) g d) t.val := by
  refine (stepS_apply (iblk2 V c 0 t) (iblk2 V c 1 t) s g d).trans ?_
  refine congrArg (s (ix2 g d) + ·) ?_
  unfold tileSum
  rw [dif_pos (lt_ten t)]
  refine Finset.sum_congr rfl fun r _ => ?_
  unfold entS
  rw [iblk2_0_apply, iblk2_1_apply]

/-- Point t adds to the counts, at graph g, the number of tile t's nodes whose id word is g. -/
theorem stepC_blk (V : (c : Dev nD) → (b : Ref sig .tc) → Buf (Elt Ideal) ((c : Thread nD τ).loc b)) (c : Dev nD)
    (t : Fin cfg2.N) (n : Vec Ideal S1x512 .f32) (g : Fin 512) :
    stepC (F := Ideal) (iblk2 V c 1 t) n (ix2 (0 : Fin 1) g)
      = n (ix2 (0 : Fin 1) g) + tileSum (entC (V c main_v42) g) t.val := by
  refine (stepC_apply (iblk2 V c 1 t) n g).trans ?_
  refine congrArg (n (ix2 (0 : Fin 1) g) + ·) ?_
  unfold tileSum
  rw [dif_pos (lt_ten t)]
  refine Finset.sum_congr rfl fun r _ => ?_
  unfold entC
  rw [iblk2_1_apply]

/-- The first point starts the sums from zero … -/
theorem pay1_apply (j : S512x128.Idx) : k2_pay1 (F := Ideal) j = 0 := by
  unfold k2_pay1
  rw [shapeCast_self, broadcast_apply]
  exact Ideal.ofBits_zero_f32
/-- … and the counts too. -/
theorem pay2_apply (j : S1x512.Idx) : k2_pay2 (F := Ideal) j = 0 := by
  unfold k2_pay2
  rw [shapeCast_self, broadcast_apply]
  exact Ideal.ofBits_zero_f32

/-- THE INVARIANT. After point n the sums hold, at (g, d), the first n + 1 tiles' parts of graph g's feature sum, and the
    counts, at g, the first n + 1 tiles' parts of its node count: by induction on the point, each point adding its tile. -/
theorem acc2_inv (V : (c : Dev nD) → (b : Ref sig .tc) → Buf (Elt Ideal) ((c : Thread nD τ).loc b)) (c : Dev nD) :
    ∀ (n : ℕ) (hn : n < cfg2.N),
      (∀ (g : Fin 512) (d : Fin 128), (acc2 (F := Ideal) V c n hn).1 (ix2 g d)
        = ∑ t ∈ Finset.range (n + 1), tileSum (entS (V c main_v41) (V c main_v42) g d) t)
      ∧ (∀ g : Fin 512, (acc2 (F := Ideal) V c n hn).2 (ix2 (0 : Fin 1) g)
        = ∑ t ∈ Finset.range (n + 1), tileSum (entC (V c main_v42) g) t)
  | 0, hn => by
    constructor
    · intro g d
      show stepS (F := Ideal) (iblk2 V c 0 ⟨0, hn⟩) (iblk2 V c 1 ⟨0, hn⟩) (k2_pay1 (F := Ideal)) (ix2 g d) = _
      rw [stepS_blk, pay1_apply, zero_add, Finset.sum_range_one]
    · intro g
      show stepC (F := Ideal) (iblk2 V c 1 ⟨0, hn⟩) (k2_pay2 (F := Ideal)) (ix2 (0 : Fin 1) g) = _
      rw [stepC_blk, pay2_apply, zero_add, Finset.sum_range_one]
  | n + 1, hn => by
    obtain ⟨ihS, ihC⟩ := acc2_inv V c n (Nat.lt_of_succ_lt hn)
    constructor
    · intro g d
      show stepS (F := Ideal) (iblk2 V c 0 ⟨n + 1, hn⟩) (iblk2 V c 1 ⟨n + 1, hn⟩)
        (View.ld (acc2 (F := Ideal) V c n (Nat.lt_of_succ_lt hn)).1 rS2) (ix2 g d) = _
      rw [stepS_blk, View.ld_unit_zero (S := S512x128) hzS2, ihS, Finset.sum_range_succ _ (n + 1)]
    · intro g
      show stepC (F := Ideal) (iblk2 V c 1 ⟨n + 1, hn⟩)
        (View.ld (acc2 (F := Ideal) V c n (Nat.lt_of_succ_lt hn)).2 rC2) (ix2 (0 : Fin 1) g) = _
      rw [stepC_blk, View.ld_unit_zero (S := S1x512) hzC2, ihC, Finset.sum_range_succ _ (n + 1)]

/-! ## The reference's pool at an entry -/

/-- The id vector made a column reads, at row n, the vector's entry n. -/
theorem idcol_apply (bt : S100000.Idx → BitVec 32) (n : Fin 100000) :
    broadcastInDim S100000x1 ![0] Cert.ReferenceIdeal.Facts₀.bcast_S100000_S100000x1_0 bt (ix2 n (0 : Fin 1)) = bt (ix1 n) :=
  broadcastInDim_apply _ _ bt (ix2 n (0 : Fin 1)) (ix1 n) (fun a => match a with
    | ⟨0, _⟩ => by show n.val = if (100000 : Nat) = 1 then 0 else n.val; rw [if_neg (by decide)])

/-- THE REFERENCE'S POOL at (g, d): the sum of the features at column d over the nodes whose id, read signed, is g,
    over the larger of the number of such nodes and one. The two scatters start from zero; an id outside [0, 512)
    names no graph and its node is dropped by both. -/
theorem poolR_apply (h : S100000x128.Idx → EReal) (bt : S100000.Idx → BitVec 32) (g : Fin 512) (d : Fin 128) :
    Cert.Spec.poolR (F := Ideal) h bt (ix2 g d)
      = Ideal.div (∑ n : Fin 100000, if (bt (ix1 n)).toInt = (g.val : ℤ) then h (ix2 n d) else 0)
          (max (∑ n : Fin 100000, if (bt (ix1 n)).toInt = (g.val : ℤ) then (1 : EReal) else 0) 1) := by
  unfold Cert.Spec.poolR
  rw [hostDivf_apply]
  refine congrArg₂ Ideal.div ?_ ?_
  · refine (Cert.LibSegmentSum.rowScatterAdd_apply
      Cert.ReferenceIdeal.Facts₀.scatter_S512x128_S100000x1_S100000x128_1_0_0_1_wf _ _ h g d).trans ?_
    rw [broadcastInDim_scalar_apply, constant_apply, Ideal.ofBits_zero_f32, zero_add]
    exact Finset.sum_congr rfl fun n _ => by rw [idcol_apply]
  · refine (broadcastInDim_apply _ Cert.ReferenceIdeal.Facts₀.bcast_S512x1_S512x128_0_1 _ (ix2 g d) (ix2 g (0 : Fin 1)) (fun a => match a with
      | ⟨0, _⟩ => by show g.val = if (512 : Nat) = 1 then 0 else g.val; rw [if_neg (by decide)]
      | ⟨1, _⟩ => by show 0 = if (1 : Nat) = 1 then 0 else d.val; rw [if_pos rfl])).trans ?_
    refine (broadcastInDim_apply _ Cert.ReferenceIdeal.Facts₀.bcast_S512_S512x1_0 _ (ix2 g (0 : Fin 1)) (ix1 g) (fun a => match a with
      | ⟨0, _⟩ => by show g.val = if (512 : Nat) = 1 then 0 else g.val; rw [if_neg (by decide)])).trans ?_
    rw [maximumf_apply, broadcastInDim_scalar_apply, constant_apply, Ideal.ofBits_one_f32]
    refine congrArg (max · (1 : EReal)) ?_
    refine (Cert.LibScatterVec.vecScatterAdd_apply
      Cert.ReferenceIdeal.Facts₀.scatter_S512_S100000x1_S100000_n_0_0_1_wf _ _ _ g).trans ?_
    rw [broadcastInDim_scalar_apply, constant_apply, Ideal.ofBits_zero_f32, zero_add]
    refine Finset.sum_congr rfl fun n _ => ?_
    rw [idcol_apply, broadcastInDim_scalar_apply, constant_apply, Ideal.ofBits_one_f32]

/-! ## The two readings of "node i belongs to graph g" -/

/-- For a graph number below 512 a 32-bit word IS that number's word exactly when, read signed, it is that number:
    numbers below 2³¹ read the same signed and unsigned, and reading signed is injective. -/
theorem word_eq_iff (w : BitVec 32) (g : Fin 512) : w = BitVec.ofNat 32 g.val ↔ w.toInt = (g.val : ℤ) := by
  have hg : (BitVec.ofNat 32 g.val).toInt = (g.val : ℤ) := by
    have h512 := g.isLt
    rw [BitVec.toInt_eq_toNat_of_lt (by rw [BitVec.toNat_ofNat]; omega), BitVec.toNat_ofNat]
    omega
  rw [← hg]
  exact BitVec.toInt_inj.symm

/-- The id vector reshaped to a column reads, at row i, the vector's entry i. -/
theorem idreshape_apply (bt : S100000.Idx → BitVec 32) (i : Fin 100000) :
    shapeCast S100000x1 bt shapeCasts_S100000_S100000x1 (ix2 i (0 : Fin 1)) = bt (ix1 i) :=
  shapeCast_apply bt _ (ix2 i (0 : Fin 1)) (ix1 i) (by
    rw [Shape.rowMajor_val_two, Shape.rowMajor_val_one]
    show i.val = i.val * 1 + 0
    omega)

/-! ## The last point's quotient is the reference's pool, entry by entry -/

/-- At the last point the ten tiles are all in: the sums are the feature sums over all nodes, the counts the node
    counts, and the stored quotient at (g, d) is the reference's. The kernel weighs node i's feature with 1 or 0 by
    comparing id words; the reference keeps or drops it by comparing the id read signed; for g < 512 these agree, and
    1 · x = x, 0 · x = 0 for every extended real x. -/
theorem out_entry (V : (c : Dev nD) → (b : Ref sig .tc) → Buf (Elt Ideal) ((c : Thread nD τ).loc b)) (c : Dev nD)
    (bt : (⟨S100000, .i32⟩ : BufTy).Contents (Elt Ideal))
    (hb : V c main_v42 = shapeCast S100000x1 bt shapeCasts_S100000_S100000x1)
    (t : Fin cfg2.N) (ht : t.val = 9) (g : Fin 512) (d : Fin 128) :
    fin2 (F := Ideal) (acc2 (F := Ideal) V c t.val t.isLt).1 (acc2 (F := Ideal) V c t.val t.isLt).2 (ix2 g d)
      = Cert.Spec.poolR (F := Ideal) (V c main_v41) bt (ix2 g d) := by
  obtain ⟨hS, hC⟩ := acc2_inv V c t.val t.isLt
  have e10 : t.val + 1 = 10 := by omega
  rw [fin2_apply, hS, hC, poolR_apply, Ideal.ofBits_one_f32, e10, sum_tileSum, sum_tileSum]
  refine congrArg₂ Ideal.div ?_ (congrArg (max · (1 : EReal)) ?_)
  · refine Finset.sum_congr rfl fun i _ => ?_
    unfold entS
    rw [hb, idreshape_apply]
    by_cases hw : bt (ix1 i) = BitVec.ofNat 32 g.val
    · rw [if_pos hw, if_pos ((word_eq_iff _ g).mp hw), one_mul]
    · rw [if_neg hw, if_neg (fun h => hw ((word_eq_iff _ g).mpr h)), zero_mul]
  · refine Finset.sum_congr rfl fun i _ => ?_
    unfold entC
    rw [hb, idreshape_apply]
    exact if_congr (word_eq_iff _ g) rfl rfl

/-! ## From the one written block to the array -/

/-- REGION 2's VALUE. The output array is written once, at the last point, with its whole block: it ends holding the
    reference's global mean pool of the features by the graph ids. -/
theorem val2 (V : (c : Dev nD) → (b : Ref sig .tc) → Buf (Elt Ideal) ((c : Thread nD τ).loc b)) (c : Dev nD)
    (bt : (⟨S100000, .i32⟩ : BufTy).Contents (Elt Ideal))
    (hb : V c main_v42 = shapeCast S100000x1 bt shapeCasts_S100000_S100000x1) :
    (dat2 (F := Ideal) V c).arrAt 2 cfg2.N = Cert.Spec.poolR (F := Ideal) (V c main_v41) bt := by
  refine (dat2 (F := Ideal) V c).arrAt_eq_of_cover 2 (Cert.Spec.poolR (F := Ideal) (V c main_v41) bt) (fun t hf => ?_) (fun i => ?_)
  · have ht : t.val = 9 := by have := (flush2_2 t).mp hf; have := lt_ten t; omega
    obtain ⟨-, -, -, -, e0, e1⟩ := idx_facts2 t
    funext j
    obtain ⟨g, d, rfl⟩ : ∃ (g : Fin 512) (d : Fin 128), j = ix2 g d := ⟨j 0, j 1, eq_ix2 j⟩
    show (dat2 (F := Ideal) V c).after 2 t (ix2 g d)
      = Cert.Spec.poolR (F := Ideal) (V c main_v41) bt (((cfg2.win 2).blk t).view.emb (ix2 g d))
    have hemb : ((cfg2.win 2).blk t).view.emb (ix2 g d) = ix2 g d := by
      funext a; apply Fin.ext
      match a with
      | ⟨0, _⟩ => show win2_2.index t (0 : Fin 2) * 512 + 1 * g.val = g.val; omega
      | ⟨1, _⟩ => show win2_2.index t (1 : Fin 2) * 128 + 1 * d.val = d.val; omega
    rw [hemb, after2_2]
    exact out_entry V c bt hb t ht g d
  · have h9 : 9 < cfg2.N := lt_of_lt_of_eq (by decide : 9 < 10) N_2.symm
    obtain ⟨-, -, -, -, e0, e1⟩ := idx_facts2 ⟨9, h9⟩
    refine ⟨⟨9, h9⟩, (flush2_2 _).mpr rfl, ?_⟩
    show i ∈ ((View.whole main_v43).slice (win2_2.rect ⟨9, h9⟩)).set
    rw [View.set_slice_whole, Rect.mem_set_unit]
    intro a
    match a with
    | ⟨0, _⟩ =>
      have hi : (i 0).val < 512 := (i 0).isLt
      show win2_2.index ⟨9, h9⟩ (0 : Fin 2) * 512 ≤ (i 0).val ∧ (i 0).val < win2_2.index ⟨9, h9⟩ (0 : Fin 2) * 512 + 512
      omega
    | ⟨1, _⟩ =>
      have hi : (i 1).val < 128 := (i 1).isLt
      show win2_2.index ⟨9, h9⟩ (1 : Fin 2) * 128 ≤ (i 1).val ∧ (i 1).val < win2_2.index ⟨9, h9⟩ (1 : Fin 2) * 128 + 128
      omega

end Cert.KernelIdeal.Hand

end
-- ==== Proof.HostK.lean ====
/-
  What the kernel program's host stretches leave in the buffers the three regions read, as the named stage
  functions of the launch memory (and of what the regions before left): the mean-aggregated inputs of the two
  layers, the two bias rows and the graph-id column.
-/
import proofs.«401791_j6786048328256_1_alg».proof.Proof.Gen.KernelIdeal.Regions
import proofs.«401791_j6786048328256_1_alg».proof.Proof.Spec
import Idealize.ShloMosaic.Lib.StableHlo.Run

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (outs : Outs (F := F))

/-! The first stretch's intermediate results that the second stretch reads again: the two edge lists and the
    reciprocal of the clamped degree, each a stage function of the index array. -/

/-- The source ids, row 0 of the index array. -/
theorem V1_main_v1 (c : Dev nD) :
    V1 m c main_v1 = Cert.Spec.srcW (F := F) (m ((c : Thread nD τ).loc main_arg1)) := by
  dsimp only [V1, hostOps0]; after_results; rfl
/-- The destination ids, row 1 of the index array. -/
theorem V1_main_v3 (c : Dev nD) :
    V1 m c main_v3 = Cert.Spec.dstW (F := F) (m ((c : Thread nD τ).loc main_arg1)) := by
  dsimp only [V1, hostOps0]; after_results; rfl
/-- The reciprocal of the clamped in-degree. -/
theorem V1_main_v11 (c : Dev nD) :
    V1 m c main_v11 = Cert.Spec.invDeg (F := F) (m ((c : Thread nD τ).loc main_arg1)) := by
  dsimp only [V1, hostOps0]; after_results; rfl

set_option maxHeartbeats 1000000 in
/-- After the first host stretch: the first layer's aggregated input, -/
theorem V1_main_v24 (c : Dev nD) :
    V1 m c main_v24 = Cert.Spec.aggK32 (F := F) (m ((c : Thread nD τ).loc main_arg0)) (m ((c : Thread nD τ).loc main_arg1)) := by
  dsimp only [V1, hostOps0]; after_results_simp; rfl
/-- its bias row, -/
theorem V1_main_v25 (c : Dev nD) :
    V1 m c main_v25 = shapeCast S1x64 (m ((c : Thread nD τ).loc main_arg6)) shapeCasts_S64_S1x64 := by
  dsimp only [V1, hostOps0]; after_results; rfl
set_option maxHeartbeats 1000000 in
/-- After the second host stretch: the second layer's aggregated input, from what region 0 left in `main_v26`, -/
theorem V3_main_v39 (c : Dev nD) :
    V3 m outs c main_v39 = Cert.Spec.aggK64 (F := F) (outs 2 main_v26 c) (m ((c : Thread nD τ).loc main_arg1)) := by
  have e1 : V2 m outs c main_v1 = Cert.Spec.srcW (F := F) (m ((c : Thread nD τ).loc main_arg1)) :=
    (V2_of m outs c main_v1 (by decide)).trans (V1_main_v1 m c)
  have e3 : V2 m outs c main_v3 = Cert.Spec.dstW (F := F) (m ((c : Thread nD τ).loc main_arg1)) :=
    (V2_of m outs c main_v3 (by decide)).trans (V1_main_v3 m c)
  have e11 : V2 m outs c main_v11 = Cert.Spec.invDeg (F := F) (m ((c : Thread nD τ).loc main_arg1)) :=
    (V2_of m outs c main_v11 (by decide)).trans (V1_main_v11 m c)
  have e26 : V2 m outs c main_v26 = outs 2 main_v26 c := Function.update_self ..
  have e : V3 m outs c main_v39 = mulf
      (Host.scatterAdd scatter_S100000x64_S1600000x1_S1600000x64_1_0_0_1 (broadcastInDim S100000x64 ![] bcast_S_S100000x64 (constant S_ .f32 0x00000000#32))
        (broadcastInDim S1600000x1 ![0] bcast_S1600000_S1600000x1_0 (V2 m outs c main_v3))
        (Host.gather gather_S100000x64_S1600000x1_S1600000x64_1_0_n_n_0_1_164 (V2 m outs c main_v26)
          (broadcastInDim S1600000x1 ![0] bcast_S1600000_S1600000x1_0
            (select (cmpi .slt (V2 m outs c main_v1) (broadcastInDim S1600000 ![] bcast_S_S1600000 (constantI S_ 32 0#32)))
              (addi (V2 m outs c main_v1) (broadcastInDim S1600000 ![] bcast_S_S1600000 (constantI S_ 32 100000#32))) (V2 m outs c main_v1)))))
      (broadcastInDim S100000x64 ![0, 1] bcast_S100000x1_S100000x64_0_1 (broadcastInDim S100000x1 ![0] bcast_S100000_S100000x1_0 (V2 m outs c main_v11))) := by
    show StableHlo.after hostOps1 (V2 m outs c) (Proc.devRef .tc main_v39) = _
    dsimp only [hostOps1]; after_results_simp
  rw [e, e1, e3, e11, e26]
  rfl
/-- its bias row, -/
theorem V3_main_v40 (c : Dev nD) :
    V3 m outs c main_v40 = shapeCast S1x128 (m ((c : Thread nD τ).loc main_arg9)) shapeCasts_S128_S1x128 := by
  have e9 : V2 m outs c main_arg9 = m ((c : Thread nD τ).loc main_arg9) :=
    (V2_of m outs c main_arg9 (by decide)).trans ((V1_of m c main_arg9 (by decide)).trans rfl)
  rw [← e9]
  show StableHlo.after hostOps1 (V2 m outs c) (Proc.devRef .tc main_v40) = _
  dsimp only [hostOps1]; after_results; rfl
/-- and region 0's output, still there. -/
theorem V3_main_v26 (c : Dev nD) : V3 m outs c main_v26 = outs 2 main_v26 c :=
  (V3_of m outs c main_v26 (by decide)).trans (Function.update_self ..)
/-- After the third host stretch: the graph ids as a column, and region 1's output, still there. -/
theorem V5_main_v42 (c : Dev nD) :
    V5 m outs c main_v42 = shapeCast S100000x1 (m ((c : Thread nD τ).loc main_arg3)) shapeCasts_S100000_S100000x1 := by
  have e3 : V4 m outs c main_arg3 = m ((c : Thread nD τ).loc main_arg3) :=
    (V4_of m outs c main_arg3 (by decide)).trans <| (V3_of m outs c main_arg3 (by decide)).trans <|
      (V2_of m outs c main_arg3 (by decide)).trans <| (V1_of m c main_arg3 (by decide)).trans rfl
  rw [← e3]
  show StableHlo.after hostOps2 (V4 m outs c) (Proc.devRef .tc main_v42) = _
  dsimp only [hostOps2]; after_results; rfl
theorem V5_main_v41 (c : Dev nD) : V5 m outs c main_v41 = outs 4 main_v41 c :=
  (V5_of m outs c main_v41 (by decide)).trans (Function.update_self ..)
/-- The arguments the regions read are as launched when they are read. -/
theorem V1_main_arg0 (c : Dev nD) : V1 m c main_arg0 = m ((c : Thread nD τ).loc main_arg0) :=
  (V1_of m c main_arg0 (by decide)).trans rfl
theorem V1_main_arg4 (c : Dev nD) : V1 m c main_arg4 = m ((c : Thread nD τ).loc main_arg4) :=
  (V1_of m c main_arg4 (by decide)).trans rfl
theorem V1_main_arg5 (c : Dev nD) : V1 m c main_arg5 = m ((c : Thread nD τ).loc main_arg5) :=
  (V1_of m c main_arg5 (by decide)).trans rfl
theorem V3_main_arg7 (c : Dev nD) : V3 m outs c main_arg7 = m ((c : Thread nD τ).loc main_arg7) :=
  (V3_of m outs c main_arg7 (by decide)).trans <| (V2_of m outs c main_arg7 (by decide)).trans <|
    (V1_of m c main_arg7 (by decide)).trans rfl
theorem V3_main_arg8 (c : Dev nD) : V3 m outs c main_arg8 = m ((c : Thread nD τ).loc main_arg8) :=
  (V3_of m outs c main_arg8 (by decide)).trans <| (V2_of m outs c main_arg8 (by decide)).trans <|
    (V1_of m c main_arg8 (by decide)).trans rfl

end Cert.KernelIdeal.Hand

end
-- ==== Proof.Agg.lean ====
/-
  The two spellings of mean aggregation agree on the extended reals: the clamped degree d is a maximum with one,
  so it is at least one and in particular not zero, and for a divisor d ≠ 0 the quotient s / d and the product
  s · (1 / d) are one extended real, whatever s is.
-/
import proofs.«401791_j6786048328256_1_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Spec

open Idealize.ShloMosaic Idealize.SL.Sem Cert.ReferenceIdeal Idealize.ShloMosaic.ValueIdx
open Cert.ReferenceIdeal.Facts₀ Cert.ReferenceIdeal.Facts

/-- A vector of N entries made a column and then spread along rows of any width reads, at row r and any column,
    the vector's entry r: the column's unit axis contributes coordinate 0, the row axis is kept. -/
theorem rowSpread_apply {α : Type} {N W : Nat} (hN : N ≠ 1)
    (h1 : (⟨1, ![N]⟩ : Shape).BroadcastsInDim (⟨2, ![N, 1]⟩ : Shape) ![0])
    (h2 : (⟨2, ![N, 1]⟩ : Shape).BroadcastsInDim (⟨2, ![N, W]⟩ : Shape) ![0, 1])
    (d : (⟨1, ![N]⟩ : Shape).Idx → α) (r : Fin N) (k : Fin W) :
    broadcastInDim (⟨2, ![N, W]⟩ : Shape) ![0, 1] h2 (broadcastInDim (⟨2, ![N, 1]⟩ : Shape) ![0] h1 d) (ix2 r k)
      = d (ix1 r) := by
  refine (broadcastInDim_apply _ h2 _ (ix2 r k) (ix2 r (0 : Fin 1)) (fun a => match a with
    | ⟨0, _⟩ => by show r.val = if N = 1 then 0 else r.val; rw [if_neg hN]
    | ⟨1, _⟩ => by show 0 = if (1 : Nat) = 1 then 0 else k.val; rw [if_pos rfl])).trans ?_
  exact broadcastInDim_apply _ h1 d (ix2 r (0 : Fin 1)) (ix1 r) (fun a => match a with
    | ⟨0, _⟩ => by show r.val = if N = 1 then 0 else r.val; rw [if_neg hN])

/-- The clamped degree is a maximum with the constant one, so it is at least one at every node. -/
theorem one_le_degM (ei : CT (F := Ideal) S2x1600000 .i32) (i : S100000.Idx) : (1 : EReal) ≤ degM (F := Ideal) ei i := by
  unfold degM
  rw [maximumf_apply]
  refine le_max_of_le_right (le_of_eq ?_)
  rw [broadcastInDim_scalar_apply, constant_apply, Ideal.ofBits_one_f32]

/-- Hence it is not zero. -/
theorem degM_ne_zero (ei : CT (F := Ideal) S2x1600000 .i32) (i : S100000.Idx) : degM (F := Ideal) ei i ≠ 0 := by
  intro e
  have h := one_le_degM ei i
  rw [e] at h
  exact absurd h (by simp)

/-- The reciprocal degree at a node is one over the clamped degree there. -/
theorem invDeg_apply (ei : CT (F := Ideal) S2x1600000 .i32) (i : S100000.Idx) :
    invDeg (F := Ideal) ei i = Ideal.div 1 (degM (F := Ideal) ei i) := by
  unfold invDeg
  rw [hostDivf_apply, broadcastInDim_scalar_apply, constant_apply, Ideal.ofBits_one_f32]

theorem aggK32_eq (x : CT (F := Ideal) S100000x32 .f32) (ei : CT (F := Ideal) S2x1600000 .i32) :
    aggK32 (F := Ideal) x ei = aggR32 (F := Ideal) x ei := by
  unfold aggK32 aggR32
  generalize sg32 (F := Ideal) x ei = s
  funext j
  obtain ⟨r, k, rfl⟩ : ∃ r k, j = ix2 r k := ⟨j 0, j 1, eq_ix2 j⟩
  rw [mulf_apply, hostDivf_apply, rowSpread_apply (by decide), rowSpread_apply (by decide), invDeg_apply]
  exact Ideal.mul_one_div (degM_ne_zero ei (ix1 r))

theorem aggK64_eq (h : CT (F := Ideal) S100000x64 .f32) (ei : CT (F := Ideal) S2x1600000 .i32) :
    aggK64 (F := Ideal) h ei = aggR64 (F := Ideal) h ei := by
  unfold aggK64 aggR64
  generalize sg64 (F := Ideal) h ei = s
  funext j
  obtain ⟨r, k, rfl⟩ : ∃ r k, j = ix2 r k := ⟨j 0, j 1, eq_ix2 j⟩
  rw [mulf_apply, hostDivf_apply, rowSpread_apply (by decide), rowSpread_apply (by decide), invDeg_apply]
  exact Ideal.mul_one_div (degM_ne_zero ei (ix1 r))

end Cert.Spec

end
-- ==== Proof.Bridge.lean ====
/-
  The kernel program's result, at the ideal instance, is the whole network of the reference: region 2's output is
  the pool of region 1's output; region 1's is the second layer of the aggregated first layer's output; region 0's
  is the first layer of the aggregated input; and the kernel program's mean aggregation (a product with the
  reciprocal clamped degree) is the reference's (a quotient by it).
-/
import proofs.«401791_j6786048328256_1_alg».proof.Proof.Run
import proofs.«401791_j6786048328256_1_alg».proof.Proof.Val0
import proofs.«401791_j6786048328256_1_alg».proof.Proof.Val1
import proofs.«401791_j6786048328256_1_alg».proof.Proof.Val2
import proofs.«401791_j6786048328256_1_alg».proof.Proof.HostK
import proofs.«401791_j6786048328256_1_alg».proof.Proof.Agg

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ)

/-- Region 0 leaves the first layer of the aggregated node features. -/
theorem o2_eq (c : Dev nD) :
    o2 (F := Ideal) m c = Cert.Spec.linR0 (F := Ideal) (Cert.Spec.aggR32 (F := Ideal) (m ((c : Thread nD τ).loc main_arg0)) (m ((c : Thread nD τ).loc main_arg1)))
      (m ((c : Thread nD τ).loc main_arg0)) (m ((c : Thread nD τ).loc main_arg4)) (m ((c : Thread nD τ).loc main_arg5)) (m ((c : Thread nD τ).loc main_arg6)) := by
  unfold o2
  rw [val0 (T1 m) c (m ((c : Thread nD τ).loc main_arg6)) (V1_main_v25 m c)]
  rw [show T1 m c main_v24 = _ from V1_main_v24 m c, show T1 m c main_arg0 = _ from V1_main_arg0 m c,
    show T1 m c main_arg4 = _ from V1_main_arg4 m c, show T1 m c main_arg5 = _ from V1_main_arg5 m c, Cert.Spec.aggK32_eq]

/-- Region 1 leaves the second layer of the aggregated hidden features. -/
theorem o4_eq (c : Dev nD) :
    o4 (F := Ideal) m c = Cert.Spec.linR1 (F := Ideal) (Cert.Spec.aggR64 (F := Ideal) (o2 (F := Ideal) m c) (m ((c : Thread nD τ).loc main_arg1)))
      (o2 (F := Ideal) m c) (m ((c : Thread nD τ).loc main_arg7)) (m ((c : Thread nD τ).loc main_arg8)) (m ((c : Thread nD τ).loc main_arg9)) := by
  unfold o4
  rw [val1 (T3 m) c (m ((c : Thread nD τ).loc main_arg9)) (V3_main_v40 m (outsA m) c)]
  rw [show T3 m c main_v39 = _ from V3_main_v39 m (outsA m) c, show T3 m c main_v26 = _ from V3_main_v26 m (outsA m) c,
    show T3 m c main_arg7 = _ from V3_main_arg7 m (outsA m) c, show T3 m c main_arg8 = _ from V3_main_arg8 m (outsA m) c,
    show outsA m 2 main_v26 c = o2 m c from mkOuts_v26 m _ _ _ 2 c, Cert.Spec.aggK64_eq]

/-- Region 2 leaves the pool of the second layer's output: the whole network. -/
theorem o6_eq (c : Dev nD) :
    o6 (F := Ideal) m c = Cert.Spec.net (F := Ideal) Cert.Spec.aggR32 Cert.Spec.aggR64 (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  unfold o6
  rw [val2 (T5 m) c (m ((c : Thread nD τ).loc main_arg3)) (V5_main_v42 m (outsB m) c)]
  rw [show T5 m c main_v41 = _ from V5_main_v41 m (outsB m) c, show outsB m 4 main_v41 c = o4 m c from mkOuts_v41 m _ _ _ 4 c,
    o4_eq, o2_eq]
  rfl

end Cert.KernelIdeal.Hand

end
-- ==== Proof.RefSide.lean ====
/-
  The reference program's result term is the whole network with the reference's own mean aggregation (a quotient
  by the clamped degree), stage by stage: the run's composed term, with its repeated sub-terms named.
-/
import proofs.«401791_j6786048328256_1_alg».proof.Proof.Gen.ReferenceIdeal.Run
import proofs.«401791_j6786048328256_1_alg».proof.Proof.Spec

noncomputable section

namespace Cert.RefSide

open Idealize.ShloMosaic Idealize.ShloMosaic.TcCoe Idealize.SL.Sem Cert.ReferenceIdeal Cert.ReferenceIdeal.Gen
open Cert.ReferenceIdeal.Facts₀ Cert.ReferenceIdeal.Facts

variable {F : FTy → Type} [FloatOps F]

set_option maxRecDepth 8192 in
set_option maxHeartbeats 4000000 in
theorem res_eq (m : (ℓ : Loc nD τ sig) → Buf (Elt F) ℓ) (c : Dev nD) :
    Cert.ReferenceIdeal.Value.res_main_v67 m c
      = Cert.Spec.net Cert.Spec.aggR32 Cert.Spec.aggR64 (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v67 Cert.Spec.net Cert.Spec.poolR Cert.Spec.linR1 Cert.Spec.linR0 Cert.Spec.aggR64 Cert.Spec.aggR32
    Cert.Spec.sg64 Cert.Spec.sg32 Cert.Spec.degM Cert.Spec.dstCol Cert.Spec.srcCol Cert.Spec.srcN Cert.Spec.srcW Cert.Spec.dstW
  rfl

end Cert.RefSide

end
-- ==== Proof.lean ====
/-
  The certificate of the two-layer GraphSAGE encoder kernel against its reference, over the extended reals.
  The kernel program is three pipelined regions among host stretches: two row-tiled "linear + relu" layers and a
  pooling kernel that accumulates per-graph sums and counts over the row tiles in scratch memory. Its frames
  (it runs to the end, faults nowhere, leaves its arguments unchanged) come from one run of the whole program
  with every region entered at the contents the items before it left. At the ideal instance the same run names
  the result array: the pool of the second layer of the mean-aggregated first layer. The reference computes the
  same network on whole arrays; the two differ in the tiling of the rows (irrelevant index by index), in the
  pool (a one-hot matrix product accumulated over the tiles against a segment sum: equal because 0·x = 0 and
  1·x = x on every extended real), and in the mean (a product with 1/d against a quotient by d: equal because
  the clamped degree d is at least 1). No algebraic step needs the inputs finite.
-/
import proofs.«401791_j6786048328256_1_alg».proof.Defs
import proofs.«401791_j6786048328256_1_alg».proof.Proof.Gen.Kernel
import proofs.«401791_j6786048328256_1_alg».proof.Proof.Gen.KernelIdeal
import proofs.«401791_j6786048328256_1_alg».proof.Proof.Gen.ReferenceIdeal
import proofs.«401791_j6786048328256_1_alg».proof.Proof.Gen.Pre_finite_inputs
import proofs.«401791_j6786048328256_1_alg».proof.Proof.Gen.ReferenceIdeal.Run
import proofs.«401791_j6786048328256_1_alg».proof.Proof.KRun
import proofs.«401791_j6786048328256_1_alg».proof.Proof.Run
import proofs.«401791_j6786048328256_1_alg».proof.Proof.Bridge
import proofs.«401791_j6786048328256_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, both run and end with one result array:
    the whole network of the agreed arguments. -/
theorem algebraic : Cert.algebraic_KernelIdeal_ReferenceIdeal := by
  intro m ρ m' ρ' _ hagree
  refine ⟨fun c => Cert.KernelIdeal.Hand.o6 (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.RefSide.res_eq]
  show _ = Cert.KernelIdeal.Hand.o6 (F := Ideal) m c
  rw [Cert.KernelIdeal.Hand.o6_eq]
  obtain ⟨h0, h1, h2, h3, h4, h5, h6, h7, h8, h9⟩ := hagree c
  rw [h0, h1, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
